-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg8 : FVec F S128x47 .f32) (main_arg9 : FVec F S128x47 .f32) (main_arg10 : FVec F S47 .f32) (main_v33 : IVec S_ 1) : IVec S_ 1 :=
  let main_v34 : FVec F S128x47 .f32 := Host.absf main_arg8
  let main_cst_12 : FVec F S_ .f32 := constant S_ .f32 0x7F800000#32
  let main_v35 : FVec F S128x47 .f32 := broadcastInDim S128x47 ![] bcast_S_S128x47 main_cst_12
  let main_v36 : IVec S128x47 1 := cmpf .olt main_v34 main_v35
  let main_c_13 : IVec S_ 1 := constantI S_ 1 1#1
  let main_v37 : IVec S_ 1 := (fun x v => Host.reduce IntOp.andi x v reducesTo_S128x47_S_d0_1 h_S_) main_v36 main_c_13
  let main_v38 : IVec S_ 1 := andi main_v33 main_v37
  let main_v39 : FVec F S128x47 .f32 := Host.absf main_arg9
  let main_cst_14 : FVec F S_ .f32 := constant S_ .f32 0x7F800000#32
  let main_v40 : FVec F S128x47 .f32 := broadcastInDim S128x47 ![] bcast_S_S128x47 main_cst_14
  let main_v41 : IVec S128x47 1 := cmpf .olt main_v39 main_v40
  let main_c_15 : IVec S_ 1 := constantI S_ 1 1#1
  let main_v42 : IVec S_ 1 := (fun x v => Host.reduce IntOp.andi x v reducesTo_S128x47_S_d0_1 h_S_) main_v41 main_c_15
  let main_v43 : IVec S_ 1 := andi main_v38 main_v42
  let main_v44 : FVec F S47 .f32 := Host.absf main_arg10
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S128x47 .f32) (main_arg9 : FVec F S128x47 .f32) (main_arg10 : FVec F S47 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x47 .f32) (main_arg9 : FVec F S128x47 .f32) (main_arg10 : FVec F S47 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S1x47 : Shape := ⟨2, ![1, 47]⟩
abbrev S800000x128 : Shape := ⟨2, ![800000, 128]⟩
abbrev S2000x128 : Shape := ⟨2, ![2000, 128]⟩
abbrev S50000x47 : Shape := ⟨2, ![50000, 47]⟩
abbrev S2000x47 : Shape := ⟨2, ![2000, 47]⟩
abbrev S2000 : Shape := ⟨1, ![2000]⟩
abbrev S2000x1 : Shape := ⟨2, ![2000, 1]⟩

abbrev nBuf : Space → Nat
  | .hbm => 79
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x47, .f32⟩
  | .hbm, ⟨9, _⟩ => ⟨S128x47, .f32⟩
  | .hbm, ⟨10, _⟩ => ⟨S47, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S1x128, .f32⟩
  | .hbm, ⟨29, _⟩ => ⟨S1x128, .f32⟩
  | .hbm, ⟨30, _⟩ => ⟨S1x47, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S_, .f32⟩
  | .hbm, ⟨73, _⟩ => ⟨S50000x128, .f32⟩
  | .hbm, ⟨74, _⟩ => ⟨S800000x1, .i32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S50000x47, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x47, .f32⟩
  | .local _ .vmem, ⟨23, _⟩ => ⟨S128x47, .f32⟩
  | .local _ .vmem, ⟨24, _⟩ => ⟨S1x47, .f32⟩
  | .local _ .vmem, ⟨25, _⟩ => ⟨S2000x47, .f32⟩
  | .local _ .vmem, ⟨26, _⟩ => ⟨S2000x47, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x47 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S128_S1x128 : S128.ShapeCasts S1x128
  shapeCasts_S47_S1x47 : S47.ShapeCasts S1x47
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x47_S128x47_0_0 : ∀ a, (![0, 0] : Fin 2 → Nat) a + S128x47.size a ≤ S128x47.size a
  h_S128x47 : 0 < S128x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S2000x47 : S1x47.Broadcasts S2000x47
  reduces_S2000x47_S2000 : S2000x47.Reduces [1] S2000
  shapeCasts_S2000_S2000x1 : S2000.ShapeCasts S2000x1
  broadcasts_S2000x1_S2000x47 : S2000x1.Broadcasts S2000x47
  inb_S2000x47_S2000x47_0_0 : ∀ a, (![0, 0] : Fin 2 → Nat) a + S2000x47.size a ≤ S2000x47.size a
  h_S2000x47 : 0 < S2000x47.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x47_S2000x47_1_0_0_1_n_n_wf : DotDims.WF S2000x128 S128x47 S2000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x47.size a ≤ S128x47.size a
  hwx2_2 : ∀ i : grid2.Coords, EltTy.bits .f32 = 32 ∨ (Rect.block (s := S128x47) S128x47.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x47.size a ≤ S128x47.size a
  hwx2_3 : ∀ i : grid2.Coords, EltTy.bits .f32 = 32 ∨ (Rect.block (s := S128x47) S128x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x47.size a ≤ S1x47.size a
  hwx2_4 : ∀ i : grid2.Coords, EltTy.bits .f32 = 32 ∨ (Rect.block (s := S1x47) S1x47.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x47.size a ≤ S50000x47.size a
  hwx2_5 : ∀ i : grid2.Coords, EltTy.bits .f32 = 32 ∨ (Rect.block (s := S50000x47) S2000x47.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x47_S2000x47_1_0_0_1_n_n : DotDims S2000x128 S128x47 S2000x47 where
  lhsContracting := [1]
  rhsContracting := [0]
  lhsNonContracting := [0]
  rhsNonContracting := [1]
  lhsBatch := []
  rhsBatch := []
  wf := dot_S2000x128_S128x47_S2000x47_1_0_0_1_n_n_wf

abbrev win0_0 : Pipeline.Window sig grid0 :=
  Pipeline.Window.ofSpec (Memref.whole main_v27) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S1x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S2000x47.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x47 : Shape := ⟨2, ![50000, 47]⟩
abbrev S1x47 : Shape := ⟨2, ![1, 47]⟩

abbrev nBuf : Space → Nat
  | .hbm => 129
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x47, .f32⟩
  | 9 => ⟨S128x47, .f32⟩
  | 10 => ⟨S47, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S50000, .f32⟩
  | 36 => ⟨S50000, .f32⟩
  | 37 => ⟨S50000x1, .f32⟩
  | 38 => ⟨S50000x128, .f32⟩
  | 39 => ⟨S50000x128, .f32⟩
  | 40 => ⟨S50000x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S_, .f32⟩
  | 63 => ⟨S800000, .f32⟩
  | 64 => ⟨S_, .f32⟩
  | 65 => ⟨S50000, .f32⟩
  | 66 => ⟨S800000x1, .i32⟩
  | 67 => ⟨S50000, .f32⟩
  | 68 => ⟨S_, .f32⟩
  | 69 => ⟨S50000, .f32⟩
  | 70 => ⟨S50000, .f32⟩
  | 71 => ⟨S50000x1, .f32⟩
  | 72 => ⟨S50000x128, .f32⟩
  | 73 => ⟨S50000x128, .f32⟩
  | 74 => ⟨S50000x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S_, .f32⟩
  | 97 => ⟨S800000, .f32⟩
  | 98 => ⟨S_, .f32⟩
  | 99 => ⟨S50000, .f32⟩
  | 100 => ⟨S800000x1, .i32⟩
  | 101 => ⟨S50000, .f32⟩
  | 102 => ⟨S_, .f32⟩
  | 103 => ⟨S50000, .f32⟩
  | 104 => ⟨S50000, .f32⟩
  | 105 => ⟨S50000x1, .f32⟩
  | 106 => ⟨S50000x128, .f32⟩
  | 107 => ⟨S50000x128, .f32⟩
  | 108 => ⟨S50000x47, .f32⟩
  | 109 => ⟨S50000x47, .f32⟩
  | 110 => ⟨S50000x47, .f32⟩
  | 111 => ⟨S1x47, .f32⟩
  | 112 => ⟨S50000x47, .f32⟩
  | 113 => ⟨S50000x47, .f32⟩
  | 114 => ⟨S_, .f32⟩
  | 115 => ⟨S50000, .f32⟩
  | 116 => ⟨S_, .f32⟩
  | 117 => ⟨S50000, .f32⟩
  | 118 => ⟨S50000, .f32⟩
  | 119 => ⟨S50000x1, .f32⟩
  | 120 => ⟨S50000x47, .f32⟩
  | 121 => ⟨S50000x47, .f32⟩
  | 122 => ⟨S50000x47, .f32⟩
  | 123 => ⟨S_, .f32⟩
  | 124 => ⟨S50000, .f32⟩
  | 125 => ⟨S50000x1, .f32⟩
  | 126 => ⟨S50000x1, .f32⟩
  | 127 => ⟨S50000x47, .f32⟩
  | _ => ⟨S50000x128, .f32⟩

abbrev hbmTy0_1 (i : Nat) : BufTy := match i % 128 with
  | 0 => ⟨S50000x47, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_call2_cst : Ref sig .tc := ⟨.hbm, 114, rfl⟩
abbrev main_call2_v0 : Ref sig .tc := ⟨.hbm, 115, rfl⟩
abbrev main_call2_cst_0 : Ref sig .tc := ⟨.hbm, 116, rfl⟩
abbrev main_call2_v1 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_cst_1 : Ref sig .tc := ⟨.hbm, 123, rfl⟩
abbrev main_call2_v7 : Ref sig .tc := ⟨.hbm, 124, rfl⟩
abbrev main_call2_v8 : Ref sig .tc := ⟨.hbm, 125, rfl⟩
abbrev main_call2_v9 : Ref sig .tc := ⟨.hbm, 126, rfl⟩
abbrev main_call2_v10 : Ref sig .tc := ⟨.hbm, 127, rfl⟩
abbrev main_v81 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S47_S1x47_1 : S47.BroadcastsInDim S1x47 (![1] : Fin 1 → Fin S1x47.rank)
  bcast_S1x47_S50000x47_0_1 : S1x47.BroadcastsInDim S50000x47 (![0, 1] : Fin 2 → Fin S50000x47.rank)
  reducesTo_S50000x47_S50000_d1 : S50000x47.ReducesTo [1] S50000
  h_S_ : 0 < S_.numel
  bcast_S50000x1_S50000x47_0_1 : S50000x1.BroadcastsInDim S50000x47 (![0, 1] : Fin 2 → Fin S50000x47.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x47_S50000x47_1_0_0_1_n_n_wf : DotDims.WF S50000x128 S128x47 S50000x47 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x47_S50000x47_1_0_0_1_n_n : DotDims S50000x128 S128x47 S50000x47 where
  lhsContracting := [1]
  rhsContracting := [0]
  lhsNonContracting := [0]
  rhsNonContracting := [1]
  lhsBatch := []
  rhsBatch := []
  wf := dot_S50000x128_S128x47_S50000x47_1_0_0_1_n_n_wf

class Facts : Prop extends Facts₀ where

variable [Facts]
-- ==== Proof.SageSpec.lean ====
/-
  The mathematics both programs compute, stated once over plain index functions.

  A SAGE layer acts on each node (row) separately.  Writing `M` for the mean-aggregated neighbour features and `H` for the
  node's own features, row `r` of the layer's pre-activation is
      z r q = (∑ k, M r k · Wl k q) + (∑ k, H r k · Wr k q) + b q ,
  the hidden layers take `max (z r q) 0`, and the last layer takes the row's log-softmax
      z r q − m − log ∑ k, exp (z r k − m),   m = max over k of z r k  (folded from −∞).
  Because a row of the result depends only on the same row of `M` and `H`, a block of rows of the result is the same
  function of the corresponding block of rows: this is what lets a row-tiled kernel meet a whole-array reference.
-/
import Idealize.ShloMosaic.Lib.ValueIdx
import Idealize.ShloMosaic.PureOps.Ideal

noncomputable section

open scoped BigOperators

namespace Sage

open Idealize.ShloMosaic Idealize.ShloMosaic.ValueIdx

/-- Row `r`, column `q` of `M · Wl + H · Wr + b` (the bias a one-row matrix), over `R` rows, contraction width `K`, `D` columns. -/
def aff {R K D : Nat} (M H : (⟨2, ![R, K]⟩ : Shape).Idx → EReal) (Wl Wr : (⟨2, ![K, D]⟩ : Shape).Idx → EReal)
    (b : (⟨2, ![1, D]⟩ : Shape).Idx → EReal) (r : Fin R) (q : Fin D) : EReal :=
  (∑ k : Fin K, M (ix2 r k) * Wl (ix2 k q)) + (∑ k : Fin K, H (ix2 r k) * Wr (ix2 k q)) + b (ix2 0 q)

/-- The affine part depends on `M` and `H` only through row `r`. -/
theorem aff_congr {R R' K D : Nat} (M H : (⟨2, ![R, K]⟩ : Shape).Idx → EReal) (M' H' : (⟨2, ![R', K]⟩ : Shape).Idx → EReal)
    (Wl Wr : (⟨2, ![K, D]⟩ : Shape).Idx → EReal) (b : (⟨2, ![1, D]⟩ : Shape).Idx → EReal) (r : Fin R) (r' : Fin R')
    (hM : ∀ k : Fin K, M (ix2 r k) = M' (ix2 r' k)) (hH : ∀ k : Fin K, H (ix2 r k) = H' (ix2 r' k)) (q : Fin D) :
    aff M H Wl Wr b r q = aff M' H' Wl Wr b r' q := by
  unfold aff
  simp only [hM, hH]

/-- The log-softmax of one row `z`, shifted by the row's maximum (a fold of `max` from the f32 word of −∞). -/
def lsmRow {D : Nat} (z : Fin D → EReal) (q : Fin D) : EReal :=
  (z q - (Finset.univ : Finset (Fin D)).fold max (Ideal.ofBits .f32 0xFF800000#32) z)
    - Ideal.log (∑ k : Fin D, Ideal.exp (z k - (Finset.univ : Finset (Fin D)).fold max (Ideal.ofBits .f32 0xFF800000#32) z))

/-- A hidden layer as one whole-array function: `max (z r q) 0` at node `r`, column `q`. -/
def reluLayer {R K D : Nat} (M H : (⟨2, ![R, K]⟩ : Shape).Idx → EReal) (Wl Wr : (⟨2, ![K, D]⟩ : Shape).Idx → EReal)
    (b : (⟨2, ![1, D]⟩ : Shape).Idx → EReal) : (⟨2, ![R, D]⟩ : Shape).Idx → EReal :=
  fun i => max (aff M H Wl Wr b ⟨(i 0).val, idx2_lt0 i⟩ ⟨(i 1).val, idx2_lt1 i⟩) 0

/-- The last layer as one whole-array function: the log-softmax of row `r` of the affine part. -/
def lsmLayer {R K D : Nat} (M H : (⟨2, ![R, K]⟩ : Shape).Idx → EReal) (Wl Wr : (⟨2, ![K, D]⟩ : Shape).Idx → EReal)
    (b : (⟨2, ![1, D]⟩ : Shape).Idx → EReal) : (⟨2, ![R, D]⟩ : Shape).Idx → EReal :=
  fun i => lsmRow (aff M H Wl Wr b ⟨(i 0).val, idx2_lt0 i⟩) ⟨(i 1).val, idx2_lt1 i⟩

theorem reluLayer_ix2 {R K D : Nat} (M H : (⟨2, ![R, K]⟩ : Shape).Idx → EReal) (Wl Wr : (⟨2, ![K, D]⟩ : Shape).Idx → EReal)
    (b : (⟨2, ![1, D]⟩ : Shape).Idx → EReal) (r : Fin R) (q : Fin D) :
    reluLayer M H Wl Wr b (ix2 r q) = max (aff M H Wl Wr b r q) 0 := rfl

theorem lsmLayer_ix2 {R K D : Nat} (M H : (⟨2, ![R, K]⟩ : Shape).Idx → EReal) (Wl Wr : (⟨2, ![K, D]⟩ : Shape).Idx → EReal)
    (b : (⟨2, ![1, D]⟩ : Shape).Idx → EReal) (r : Fin R) (q : Fin D) :
    lsmLayer M H Wl Wr b (ix2 r q) = lsmRow (aff M H Wl Wr b r) q := rfl

/-- Folding `max` from a start value never goes below the start value, so taking `max` with it again changes nothing. -/
theorem max_fold_max {D : Nat} (c : EReal) (z : Fin D → EReal) :
    max c ((Finset.univ : Finset (Fin D)).fold max c z) = (Finset.univ : Finset (Fin D)).fold max c z :=
  max_eq_right ((Finset.le_fold_max c).mpr (Or.inl le_rfl))

/-- Dividing by `c` is multiplying by `1 / c` on every extended real, as long as `c` is not zero: both are `x · c⁻¹`. -/
theorem mul_one_div {c : EReal} (hc : c ≠ 0) (x : EReal) : x * Ideal.div 1 c = Ideal.div x c := by
  unfold Ideal.div
  rw [if_neg hc, if_neg hc, one_mul]

/-- The f32 word of 1.0 is the extended real 1. -/
theorem ofBits_one : Ideal.ofBits .f32 0x3F800000#32 = 1 := by
  simp [Ideal.ofBits, Ideal.ieee, -EReal.coe_mul]; norm_num

/-- The mean over neighbours, two ways: the sum times the reciprocal of the clamped count, or the sum divided by the
    clamped count.  The count is clamped below by 1, so it is not zero and both are the sum times its inverse. -/
theorem mul_inv_count (x cnt : EReal) :
    x * Ideal.div (Ideal.ofBits .f32 0x3F800000#32) (max cnt (Ideal.ofBits .f32 0x3F800000#32))
      = Ideal.div x (max cnt (Ideal.ofBits .f32 0x3F800000#32)) := by
  rw [ofBits_one]
  exact mul_one_div ((lt_of_lt_of_le zero_lt_one (le_max_right cnt 1)).ne') x

/-- A count clamped below by a positive number is not zero. -/
theorem max_ne_zero {a b : EReal} (hb : 0 < b) : max a b ≠ 0 :=
  (lt_of_lt_of_le hb (le_max_right a b)).ne'

end Sage

end
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.LibKeepdimsColumn.lean ====
/-
  Reading a row reduction kept as a column. A kernel that writes `sum(x, axis=-1, keepdims=True)` over an `[a, b]`
  block produces an `[a]` vector of lane sums, casts it to the column `[a, 1]`, works on the column, and
  broadcasts it back over the `b` lanes. Three index-level readings, at the extended reals, over generic extents:
  the cast to a column, the broadcast of a column over the lanes, and the lane sum itself as a `Fin b`-indexed sum.
-/
import Idealize.ShloMosaic.Lib.Pipeline.Value
import Idealize.ShloMosaic.Lib.ValueIdx
import Idealize.ShloMosaic.PureOps.Ideal.Laws

namespace Cert.KeepdimsColumn

open Idealize.ShloMosaic Idealize.ShloMosaic.ValueIdx

variable {α : Type}

/-- An `[a]` array cast to the column `[a, 1]` reads, at `(p, u)`, the operand at `p`: both sit at row-major
    position `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, c)`, the column's entry of row `p`, whatever the lane `c`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` vector, read at row `p` on the extended reals, is the sum over the `b` lanes of
    that row: the source index over `p` with lane `k` inserted is `(p, k)`. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (funext fun c => Fin.ext (by
    match c with
    | ⟨0, _⟩ => rfl
    | ⟨1, _⟩ => rfl))

end Cert.KeepdimsColumn
-- ==== Proof.KernelRows.lean ====
/-
  What each of the three kernel bodies stores, read at one entry (p, q) of its block of 2000 rows, over the extended reals.

  Every body forms  M·Wl + H·Wr + b  on its block (two products into zero accumulators, their sum, the one-row bias
  repeated over the rows); the change of float format on the way into the products is the identity on extended reals.
  The first two bodies then take the maximum with 0; the last takes the row-wise log-softmax: the row's maximum as a lane
  reduction kept as a column and repeated over the lanes, the shifted exponentials' lane sum kept as a column, its
  logarithm repeated over the lanes.  Entry (p, q) therefore depends only on row p of the two row blocks.
-/
import proofs.«148366_j43800076484795_1_alg».proof.Proof.Gen.KernelIdeal.Skeleton
import proofs.«148366_j43800076484795_1_alg».proof.Proof.SageSpec
import proofs.«148366_j43800076484795_1_alg».proof.Proof.LibPlainMatmul
import proofs.«148366_j43800076484795_1_alg».proof.Proof.LibKeepdimsColumn
import Idealize.ShloMosaic.Lib.ValueLayout
import Idealize.ShloMosaic.Lib.Pipeline.Value
import Idealize.ShloMosaic.PureOps.Ideal.Laws

noncomputable section

open scoped BigOperators

namespace Cert.KernelIdeal.Rows

open Cert.KernelIdeal Cert.KernelIdeal.Gen Idealize.ShloMosaic Idealize.ShloMosaic.ValueIdx

/-- The two contractions the bodies use are the plain row-by-column product. -/
theorem dot128_plain : dot_S2000x128_S128x128_S2000x128_1_0_0_1_n_n = DotDims.plain 2000 128 128 := rfl
theorem dot47_plain : dot_S2000x128_S128x47_S2000x47_1_0_0_1_n_n = DotDims.plain 2000 128 47 := rfl

/-- The affine part of a block at (p, q): the two products' sums over the 128 input features plus the bias at q. -/
theorem affine_at {D : Nat} (a h : FVec Ideal ⟨2, ![2000, 128]⟩ .bf16) (wl wr : FVec Ideal ⟨2, ![128, D]⟩ .bf16)
    (b : FVec Ideal ⟨2, ![1, D]⟩ .f32) (hb : (⟨2, ![1, D]⟩ : Shape).Broadcasts ⟨2, ![2000, D]⟩) (p : Fin 2000) (q : Fin D) :
    addf (addf (matmul (DotDims.plain 2000 128 D) none a wl (constant (⟨2, ![2000, D]⟩ : Shape) .f32 0x00000000#32))
        (matmul (DotDims.plain 2000 128 D) none h wr (constant (⟨2, ![2000, D]⟩ : Shape) .f32 0x00000000#32)))
      (broadcastTo (⟨2, ![2000, D]⟩ : Shape) b hb) (ix2 p q) = Sage.aff a h wl wr b p q := by
  unfold Sage.aff
  rw [addf_apply, addf_apply, broadcastTo_1b_ab_apply, Cert.LibPlainMatmul.matmul_plain_apply,
    Cert.LibPlainMatmul.matmul_plain_apply]

/-- The first hidden layer's body at (p, q). -/
theorem pay0_at (x0 x1 : Vec Ideal S2000x128 .f32) (x2 x3 : Vec Ideal S128x128 .f32) (x4 : Vec Ideal S1x128 .f32)
    (p : Fin 2000) (q : Fin 128) :
    k0_pay1 (F := Ideal) x0 x1 x2 x3 x4 (ix2 p q) = max (Sage.aff x0 x1 x2 x3 x4 p q) 0 := by
  unfold k0_pay1
  rw [maximumf_apply, broadcast_apply, dot128_plain, affine_at, shapeCast_self x0, shapeCast_self x4]
  exact congrArg (max _) Ideal.ofBits_zero_f32

/-- The second hidden layer's body at (p, q). -/
theorem pay1_at (x0 x1 : Vec Ideal S2000x128 .f32) (x2 x3 : Vec Ideal S128x128 .f32) (x4 : Vec Ideal S1x128 .f32)
    (p : Fin 2000) (q : Fin 128) :
    k1_pay1 (F := Ideal) x0 x1 x2 x3 x4 (ix2 p q) = max (Sage.aff x0 x1 x2 x3 x4 p q) 0 := by
  unfold k1_pay1
  rw [maximumf_apply, broadcast_apply, dot128_plain, affine_at, shapeCast_self x0, shapeCast_self x1, shapeCast_self x4]
  exact congrArg (max _) Ideal.ofBits_zero_f32

/-- A row's maximum taken as a lane reduction, read at row p: the fold of max over the row from the accumulator's value. -/
theorem laneMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) := by
  refine (Ideal.multiReduction_maximumf_single src acc h hφ hacc (ix1 p)).trans ?_
  exact congrArg (Finset.fold max (FloatOps.ofBits φ acc) · Finset.univ) (funext fun k => congrArg src (funext fun c => Fin.ext (by
    match c with
    | ⟨0, _⟩ => rfl
    | ⟨1, _⟩ => rfl)))

/-- The log-softmax tail of the last body on a block u, at (p, q): the log-softmax of row p of u. -/
theorem lsm_block_at (u : FVec Ideal S2000x47 .f32) (p : Fin 2000) (q : Fin 47) :
    subf (subf u (broadcastTo S2000x47 (shapeCast S2000x1 (multiReduction .maximumf [1] S2000 u 0xFF800000#32 reduces_S2000x47_S2000 (.inl rfl) rfl) shapeCasts_S2000_S2000x1) broadcasts_S2000x1_S2000x47))
      (broadcastTo S2000x47 (log (shapeCast S2000x1 (multiReduction .add [1] S2000 (exp (subf u (broadcastTo S2000x47 (shapeCast S2000x1 (multiReduction .maximumf [1] S2000 u 0xFF800000#32 reduces_S2000x47_S2000 (.inl rfl) rfl) shapeCasts_S2000_S2000x1) broadcasts_S2000x1_S2000x47))) 0x00000000#32 reduces_S2000x47_S2000 (.inl rfl) rfl) shapeCasts_S2000_S2000x1)) broadcasts_S2000x1_S2000x47) (ix2 p q)
    = Sage.lsmRow (fun k => u (ix2 p k)) q := by
  -- the row's maximum, repeated over the lanes
  have hmax : ∀ c : Fin 47, broadcastTo S2000x47 (shapeCast S2000x1 (multiReduction .maximumf [1] S2000 u 0xFF800000#32 reduces_S2000x47_S2000 (.inl rfl) rfl) shapeCasts_S2000_S2000x1) broadcasts_S2000x1_S2000x47 (ix2 p c)
      = (Finset.univ : Finset (Fin 47)).fold max (Ideal.ofBits .f32 0xFF800000#32) (fun k => u (ix2 p k)) := by
    intro c
    refine (Cert.KeepdimsColumn.broadcastTo_a1_ab_apply _ _ p c).trans ?_
    refine (Cert.KeepdimsColumn.shapeCast_a_a1_apply _ _ p 0).trans ?_
    exact laneMax_apply u _ _ _ _ p
  unfold Sage.lsmRow
  rw [subf_apply, subf_apply, hmax q, Cert.KeepdimsColumn.broadcastTo_a1_ab_apply]
  show _ - Ideal.log (shapeCast S2000x1 _ shapeCasts_S2000_S2000x1 (ix2 p (0 : Fin 1))) = _
  refine congrArg (fun s : EReal => (u (ix2 p q) - (Finset.univ : Finset (Fin 47)).fold max (Ideal.ofBits .f32 0xFF800000#32) (fun k => u (ix2 p k))) - Ideal.log s) ?_
  refine (Cert.KeepdimsColumn.shapeCast_a_a1_apply _ _ p 0).trans ?_
  refine (Cert.KeepdimsColumn.laneSum_apply _ _ _ _ _ p).trans (Finset.sum_congr rfl fun k _ => ?_)
  show Ideal.exp (subf u _ (ix2 p k)) = _
  rw [subf_apply, hmax k]

/-- The last layer's body at (p, q). -/
theorem pay2_at (x0 x1 : Vec Ideal S2000x128 .f32) (x2 x3 : Vec Ideal S128x47 .f32) (x4 : Vec Ideal S1x47 .f32)
    (p : Fin 2000) (q : Fin 47) :
    k2_pay1 (F := Ideal) x0 x1 x2 x3 x4 (ix2 p q) = Sage.lsmRow (Sage.aff x0 x1 x2 x3 x4 p) q := by
  unfold k2_pay1
  refine (lsm_block_at _ p q).trans ?_
  refine congrArg (fun z => Sage.lsmRow z q) (funext fun k => ?_)
  rw [dot47_plain, affine_at, shapeCast_self x0, shapeCast_self x1, shapeCast_self x4]
  rfl

end Cert.KernelIdeal.Rows

end
-- ==== Proof.KernelBlocks.lean ====
/-
  From blocks to arrays.  Each pallas_call runs its body on 25 blocks of 2000 consecutive rows: at grid point t the two
  row-tiled inputs' blocks are rows 2000·t … 2000·t + 1999 of their arrays, the weights and the bias are whole, and the
  output block is written back to the same rows of the result.  Since entry (p, q) of the body's result depends only on
  row p of the two row blocks, what point t writes back is rows 2000·t … of ONE whole-array function of the region's
  input arrays (the layer of SageSpec), and the 25 blocks cover the result: the result array ends holding that function.
  Everything is stated at the contents V the region is entered with, whatever they are.
-/
import proofs.«148366_j43800076484795_1_alg».proof.Proof.Gen.KernelIdeal.Frame
import proofs.«148366_j43800076484795_1_alg».proof.Proof.KernelRows
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

theorem lt25_0 (t : Fin cfg0.N) : t.val < 25 := lt_of_lt_of_eq t.isLt N_0

/-- The block indices over the grid: the row-tiled windows (the two inputs and the output) are at block row t, column
    block 0; the weights and the bias at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of input window 0's block at point t is row 2000·t + p of its array. -/
theorem read0_0 (c : Dev nD) (t : Fin cfg0.N) (y : S2000x128.Idx) (i : S50000x128.Idx)
    (h0 : (i 0).val = 2000 * t.val + (y 0).val) (h1 : (i 1).val = (y 1).val) :
    (iblk0 V c 0 t : Vec Ideal S2000x128 .f32) y = (V c main_v27 : S50000x128.Idx → Elt Ideal .f32) i := by
  obtain ⟨e0, e1, -⟩ := idx0 t
  unfold iblk0
  rw [View.read_apply]
  show V c main_v27 _ = V c main_v27 _
  congr 1
  funext a
  apply Fin.ext
  match a with
  | ⟨0, _⟩ => show win0_0.index t 0 * 2000 + 1 * (y 0).val = (i 0).val; rw [e0, h0]; omega
  | ⟨1, _⟩ => show win0_0.index t 1 * 128 + 1 * (y 1).val = (i 1).val; rw [e1, h1]; omega

/-- Row p of input window 1's block at point t is row 2000·t + p of its array. -/
theorem read0_1 (c : Dev nD) (t : Fin cfg0.N) (y : S2000x128.Idx) (i : S50000x128.Idx)
    (h0 : (i 0).val = 2000 * t.val + (y 0).val) (h1 : (i 1).val = (y 1).val) :
    (iblk0 V c 1 t : Vec Ideal S2000x128 .f32) y = (V c main_arg0 : S50000x128.Idx → Elt Ideal .f32) i := by
  obtain ⟨-, -, e0, e1, -⟩ := idx0 t
  unfold iblk0
  rw [View.read_apply]
  show V c main_arg0 _ = V c main_arg0 _
  congr 1
  funext a
  apply Fin.ext
  match a with
  | ⟨0, _⟩ => show win0_1.index t 0 * 2000 + 1 * (y 0).val = (i 0).val; rw [e0, h0]; omega
  | ⟨1, _⟩ => show win0_1.index t 1 * 128 + 1 * (y 1).val = (i 1).val; rw [e1, h1]; omega

/-- The left weight's block is the whole matrix at every point. -/
theorem read0_2 (c : Dev nD) (t : Fin cfg0.N) :
    (iblk0 V c 2 t : Vec Ideal S128x128 .f32) = (V c main_arg2 : S128x128.Idx → Elt Ideal .f32) := by
  obtain ⟨-, -, -, -, e0, e1, -⟩ := idx0 t
  funext y
  unfold iblk0
  rw [View.read_apply]
  show V c main_arg2 _ = V c main_arg2 _
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- The right weight's block is the whole matrix at every point. -/
theorem read0_3 (c : Dev nD) (t : Fin cfg0.N) :
    (iblk0 V c 3 t : Vec Ideal S128x128 .f32) = (V c main_arg3 : S128x128.Idx → Elt Ideal .f32) := by
  obtain ⟨-, -, -, -, -, -, e0, e1, -⟩ := idx0 t
  funext y
  unfold iblk0
  rw [View.read_apply]
  show V c main_arg3 _ = V c main_arg3 _
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

/-- The bias row's block is the whole row at every point. -/
theorem read0_4 (c : Dev nD) (t : Fin cfg0.N) :
    (iblk0 V c 4 t : Vec Ideal S1x128 .f32) = (V c main_v13 : S1x128.Idx → Elt Ideal .f32) := by
  obtain ⟨-, -, -, -, -, -, -, -, e0, e1, -⟩ := idx0 t
  funext y
  unfold iblk0
  rw [View.read_apply]
  show V c main_v13 _ = V c main_v13 _
  congr 1
  funext a
  apply Fin.ext
  match a with
  | ⟨0, _⟩ => show win0_4.index t 0 * 1 + 1 * (y 0).val = (y 0).val; rw [e0]; omega
  | ⟨1, _⟩ => show win0_4.index t 1 * 128 + 1 * (y 1).val = (y 1).val; rw [e1]; omega

/-- The layer the region computes, of the arrays it is entered with. -/
abbrev layer0 (c : Dev nD) : S50000x128.Idx → Elt Ideal .f32 :=
  Sage.reluLayer (V c main_v27 : S50000x128.Idx → Elt Ideal .f32) (V c main_arg0 : S50000x128.Idx → Elt Ideal .f32)
    (V c main_arg2 : S128x128.Idx → Elt Ideal .f32) (V c main_arg3 : S128x128.Idx → Elt Ideal .f32) (V c main_v13 : S1x128.Idx → Elt Ideal .f32)

/-- What point t writes back is block t of the layer. -/
theorem flushed0 (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  rw [read0_2 V c t, read0_3 V c t, read0_4 V c t]
  obtain ⟨-, -, -, -, -, -, -, -, -, -, e0, e1⟩ := idx0 t
  have ht := lt25_0 t
  funext y
  obtain ⟨p, q, rfl⟩ : ∃ (p : Fin 2000) (q : Fin 128), y = ix2 p q := ⟨y 0, y 1, eq_ix2 y⟩
  have hemb : ((cfg0.win 5).blk t).view.emb (ix2 p q) = (ix2 (⟨2000 * t.val + p.val, by omega⟩ : Fin 50000) q : S50000x128.Idx) := by
    funext a
    apply Fin.ext
    match a with
    | ⟨0, _⟩ => show win0_5.index t 0 * 2000 + 1 * p.val = 2000 * t.val + p.val; rw [e0]; omega
    | ⟨1, _⟩ => show win0_5.index t 1 * 128 + 1 * q.val = q.val; rw [e1]; omega
  show k0_pay1 (iblk0 V c 0 t) (iblk0 V c 1 t) _ _ _ (ix2 p q) = layer0 V c (((cfg0.win 5).blk t).view.emb (ix2 p q))
  rw [hemb]
  refine (Rows.pay0_at (iblk0 V c 0 t) (iblk0 V c 1 t) _ _ _ p q).trans ?_
  refine congrArg (max · 0) ?_
  exact Sage.aff_congr _ _ _ _ _ _ _ p ⟨2000 * t.val + p.val, by omega⟩
    (fun k => read0_0 V c t (ix2 p k) (ix2 ⟨2000 * t.val + p.val, by omega⟩ k) rfl rfl)
    (fun k => read0_1 V c t (ix2 p k) (ix2 ⟨2000 * t.val + p.val, by omega⟩ k) rfl rfl) q

/-- An index of the result is in point t's block iff each coordinate is in the block's range on its axis. -/
theorem mem_blk0 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v28).slice (win0_5.rect t)).set ↔ _
  rw [View.set_slice_whole, Rect.mem_set_unit]
  exact Iff.rfl

/-- The 25 row blocks cover the result: row r is in block r / 2000. -/
theorem cover0 (i : S50000x128.Idx) : ∃ t : Fin cfg0.N, (cfg0.win 5).flush t = true ∧ i ∈ ((cfg0.win 5).blk t).view.set := by
  have hi0 : (i 0).val < 50000 := idx2_lt0 i
  have hi1 : (i 1).val < 128 := idx2_lt1 i
  let t : Fin cfg0.N := ⟨(i 0).val / 2000, by rw [show cfg0.N = 25 from N_0]; omega⟩
  obtain ⟨-, -, -, -, -, -, -, -, -, -, e0, e1⟩ := idx0 t
  refine ⟨t, flush0_5 t, ?_⟩
  rw [mem_blk0]
  intro a
  match a with
  | ⟨0, _⟩ => show win0_5.index t 0 * 2000 ≤ (i 0).val ∧ (i 0).val < win0_5.index t 0 * 2000 + 2000; rw [e0]; show (i 0).val / 2000 * 2000 ≤ (i 0).val ∧ (i 0).val < (i 0).val / 2000 * 2000 + 2000; omega
  | ⟨1, _⟩ => show win0_5.index t 1 * 128 ≤ (i 1).val ∧ (i 1).val < win0_5.index t 1 * 128 + 128; rw [e1]; omega

/-- The result array of region 0 ends holding the layer of the arrays the region was entered with. -/
theorem final0 (c : Dev nD) : (dat0 V c).arrAt 5 cfg0.N = layer0 V c :=
  (dat0 V c).arrAt_eq_of_cover 5 (layer0 V c) (fun t _ => flushed0 V c t) cover0

end Cert.KernelIdeal.Blocks

end
-- ==== Proof.KernelBlocks1.lean ====
import proofs.«148366_j43800076484795_1_alg».proof.Proof.KernelBlocks

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## Region 1 -/

theorem lt25_1 (t : Fin cfg1.N) : t.val < 25 := lt_of_lt_of_eq t.isLt N_1

/-- The block indices over the grid: the row-tiled windows (the two inputs and the output) are at block row t, column
    block 0; the weights and the bias at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of input window 0's block at point t is row 2000·t + p of its array. -/
theorem read1_0 (c : Dev nD) (t : Fin cfg1.N) (y : S2000x128.Idx) (i : S50000x128.Idx)
    (h0 : (i 0).val = 2000 * t.val + (y 0).val) (h1 : (i 1).val = (y 1).val) :
    (iblk1 V c 0 t : Vec Ideal S2000x128 .f32) y = (V c main_v40 : S50000x128.Idx → Elt Ideal .f32) i := by
  obtain ⟨e0, e1, -⟩ := idx1 t
  unfold iblk1
  rw [View.read_apply]
  show V c main_v40 _ = V c main_v40 _
  congr 1
  funext a
  apply Fin.ext
  match a with
  | ⟨0, _⟩ => show win1_0.index t 0 * 2000 + 1 * (y 0).val = (i 0).val; rw [e0, h0]; omega
  | ⟨1, _⟩ => show win1_0.index t 1 * 128 + 1 * (y 1).val = (i 1).val; rw [e1, h1]; omega

/-- Row p of input window 1's block at point t is row 2000·t + p of its array. -/
theorem read1_1 (c : Dev nD) (t : Fin cfg1.N) (y : S2000x128.Idx) (i : S50000x128.Idx)
    (h0 : (i 0).val = 2000 * t.val + (y 0).val) (h1 : (i 1).val = (y 1).val) :
    (iblk1 V c 1 t : Vec Ideal S2000x128 .f32) y = (V c main_v28 : S50000x128.Idx → Elt Ideal .f32) i := by
  obtain ⟨-, -, e0, e1, -⟩ := idx1 t
  unfold iblk1
  rw [View.read_apply]
  show V c main_v28 _ = V c main_v28 _
  congr 1
  funext a
  apply Fin.ext
  match a with
  | ⟨0, _⟩ => show win1_1.index t 0 * 2000 + 1 * (y 0).val = (i 0).val; rw [e0, h0]; omega
  | ⟨1, _⟩ => show win1_1.index t 1 * 128 + 1 * (y 1).val = (i 1).val; rw [e1, h1]; omega

/-- The left weight's block is the whole matrix at every point. -/
theorem read1_2 (c : Dev nD) (t : Fin cfg1.N) :
    (iblk1 V c 2 t : Vec Ideal S128x128 .f32) = (V c main_arg5 : S128x128.Idx → Elt Ideal .f32) := by
  obtain ⟨-, -, -, -, e0, e1, -⟩ := idx1 t
  funext y
  unfold iblk1
  rw [View.read_apply]
  show V c main_arg5 _ = V c main_arg5 _
  congr 1
  funext a
  apply Fin.ext
  match a with
  | ⟨0, _⟩ => show win1_2.index t 0 * 128 + 1 * (y 0).val = (y 0).val; rw [e0]; omega
  | ⟨1, _⟩ => show win1_2.index t 1 * 128 + 1 * (y 1).val = (y 1).val; rw [e1]; omega

/-- The right weight's block is the whole matrix at every point. -/
theorem read1_3 (c : Dev nD) (t : Fin cfg1.N) :
    (iblk1 V c 3 t : Vec Ideal S128x128 .f32) = (V c main_arg6 : S128x128.Idx → Elt Ideal .f32) := by
  obtain ⟨-, -, -, -, -, -, e0, e1, -⟩ := idx1 t
  funext y
  unfold iblk1
  rw [View.read_apply]
  show V c main_arg6 _ = V c main_arg6 _
  congr 1
  funext a
  apply Fin.ext
  match a with
  | ⟨0, _⟩ => show win1_3.index t 0 * 128 + 1 * (y 0).val = (y 0).val; rw [e0]; omega
  | ⟨1, _⟩ => show win1_3.index t 1 * 128 + 1 * (y 1).val = (y 1).val; rw [e1]; omega

/-- The bias row's block is the whole row at every point. -/
theorem read1_4 (c : Dev nD) (t : Fin cfg1.N) :
    (iblk1 V c 4 t : Vec Ideal S1x128 .f32) = (V c main_v14 : S1x128.Idx → Elt Ideal .f32) := by
  obtain ⟨-, -, -, -, -, -, -, -, e0, e1, -⟩ := idx1 t
  funext y
  unfold iblk1
  rw [View.read_apply]
  show V c main_v14 _ = V c main_v14 _
  congr 1
  funext a
  apply Fin.ext
  match a with
  | ⟨0, _⟩ => show win1_4.index t 0 * 1 + 1 * (y 0).val = (y 0).val; rw [e0]; omega
  | ⟨1, _⟩ => show win1_4.index t 1 * 128 + 1 * (y 1).val = (y 1).val; rw [e1]; omega

/-- The layer the region computes, of the arrays it is entered with. -/
abbrev layer1 (c : Dev nD) : S50000x128.Idx → Elt Ideal .f32 :=
  Sage.reluLayer (V c main_v40 : S50000x128.Idx → Elt Ideal .f32) (V c main_v28 : S50000x128.Idx → Elt Ideal .f32)
    (V c main_arg5 : S128x128.Idx → Elt Ideal .f32) (V c main_arg6 : S128x128.Idx → Elt Ideal .f32) (V c main_v14 : S1x128.Idx → Elt Ideal .f32)

/-- What point t writes back is block t of the layer. -/
theorem flushed1 (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  rw [read1_2 V c t, read1_3 V c t, read1_4 V c t]
  obtain ⟨-, -, -, -, -, -, -, -, -, -, e0, e1⟩ := idx1 t
  have ht := lt25_1 t
  funext y
  obtain ⟨p, q, rfl⟩ : ∃ (p : Fin 2000) (q : Fin 128), y = ix2 p q := ⟨y 0, y 1, eq_ix2 y⟩
  have hemb : ((cfg1.win 5).blk t).view.emb (ix2 p q) = (ix2 (⟨2000 * t.val + p.val, by omega⟩ : Fin 50000) q : S50000x128.Idx) := by
    funext a
    apply Fin.ext
    match a with
    | ⟨0, _⟩ => show win1_5.index t 0 * 2000 + 1 * p.val = 2000 * t.val + p.val; rw [e0]; omega
    | ⟨1, _⟩ => show win1_5.index t 1 * 128 + 1 * q.val = q.val; rw [e1]; omega
  show k1_pay1 (iblk1 V c 0 t) (iblk1 V c 1 t) _ _ _ (ix2 p q) = layer1 V c (((cfg1.win 5).blk t).view.emb (ix2 p q))
  rw [hemb]
  refine (Rows.pay1_at (iblk1 V c 0 t) (iblk1 V c 1 t) _ _ _ p q).trans ?_
  refine congrArg (max · 0) ?_
  exact Sage.aff_congr _ _ _ _ _ _ _ p ⟨2000 * t.val + p.val, by omega⟩
    (fun k => read1_0 V c t (ix2 p k) (ix2 ⟨2000 * t.val + p.val, by omega⟩ k) rfl rfl)
    (fun k => read1_1 V c t (ix2 p k) (ix2 ⟨2000 * t.val + p.val, by omega⟩ k) rfl rfl) q

/-- An index of the result is in point t's block iff each coordinate is in the block's range on its axis. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v41).slice (win1_5.rect t)).set ↔ _
  rw [View.set_slice_whole, Rect.mem_set_unit]
  exact Iff.rfl

/-- The 25 row blocks cover the result: row r is in block r / 2000. -/
theorem cover1 (i : S50000x128.Idx) : ∃ t : Fin cfg1.N, (cfg1.win 5).flush t = true ∧ i ∈ ((cfg1.win 5).blk t).view.set := by
  have hi0 : (i 0).val < 50000 := idx2_lt0 i
  have hi1 : (i 1).val < 128 := idx2_lt1 i
  let t : Fin cfg1.N := ⟨(i 0).val / 2000, by rw [show cfg1.N = 25 from N_1]; omega⟩
  obtain ⟨-, -, -, -, -, -, -, -, -, -, e0, e1⟩ := idx1 t
  refine ⟨t, flush1_5 t, ?_⟩
  rw [mem_blk1]
  intro a
  match a with
  | ⟨0, _⟩ => show win1_5.index t 0 * 2000 ≤ (i 0).val ∧ (i 0).val < win1_5.index t 0 * 2000 + 2000; rw [e0]; show (i 0).val / 2000 * 2000 ≤ (i 0).val ∧ (i 0).val < (i 0).val / 2000 * 2000 + 2000; omega
  | ⟨1, _⟩ => show win1_5.index t 1 * 128 ≤ (i 1).val ∧ (i 1).val < win1_5.index t 1 * 128 + 128; rw [e1]; omega

/-- The result array of region 1 ends holding the layer of the arrays the region was entered with. -/
theorem final1 (c : Dev nD) : (dat1 V c).arrAt 5 cfg1.N = layer1 V c :=
  (dat1 V c).arrAt_eq_of_cover 5 (layer1 V c) (fun t _ => flushed1 V c t) cover1

end Cert.KernelIdeal.Blocks

end
-- ==== Proof.KernelBlocks2.lean ====
import proofs.«148366_j43800076484795_1_alg».proof.Proof.KernelBlocks

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## Region 2 -/

theorem lt25_2 (t : Fin cfg2.N) : t.val < 25 := lt_of_lt_of_eq t.isLt N_2

/-- The block indices over the grid: the row-tiled windows (the two inputs and the output) are at block row t, column
    block 0; the weights and the bias at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of input window 0's block at point t is row 2000·t + p of its array. -/
theorem read2_0 (c : Dev nD) (t : Fin cfg2.N) (y : S2000x128.Idx) (i : S50000x128.Idx)
    (h0 : (i 0).val = 2000 * t.val + (y 0).val) (h1 : (i 1).val = (y 1).val) :
    (iblk2 V c 0 t : Vec Ideal S2000x128 .f32) y = (V c main_v53 : S50000x128.Idx → Elt Ideal .f32) i := by
  obtain ⟨e0, e1, -⟩ := idx2 t
  unfold iblk2
  rw [View.read_apply]
  show V c main_v53 _ = V c main_v53 _
  congr 1
  funext a
  apply Fin.ext
  match a with
  | ⟨0, _⟩ => show win2_0.index t 0 * 2000 + 1 * (y 0).val = (i 0).val; rw [e0, h0]; omega
  | ⟨1, _⟩ => show win2_0.index t 1 * 128 + 1 * (y 1).val = (i 1).val; rw [e1, h1]; omega

/-- Row p of input window 1's block at point t is row 2000·t + p of its array. -/
theorem read2_1 (c : Dev nD) (t : Fin cfg2.N) (y : S2000x128.Idx) (i : S50000x128.Idx)
    (h0 : (i 0).val = 2000 * t.val + (y 0).val) (h1 : (i 1).val = (y 1).val) :
    (iblk2 V c 1 t : Vec Ideal S2000x128 .f32) y = (V c main_v41 : S50000x128.Idx → Elt Ideal .f32) i := by
  obtain ⟨-, -, e0, e1, -⟩ := idx2 t
  unfold iblk2
  rw [View.read_apply]
  show V c main_v41 _ = V c main_v41 _
  congr 1
  funext a
  apply Fin.ext
  match a with
  | ⟨0, _⟩ => show win2_1.index t 0 * 2000 + 1 * (y 0).val = (i 0).val; rw [e0, h0]; omega
  | ⟨1, _⟩ => show win2_1.index t 1 * 128 + 1 * (y 1).val = (i 1).val; rw [e1, h1]; omega

/-- The left weight's block is the whole matrix at every point. -/
theorem read2_2 (c : Dev nD) (t : Fin cfg2.N) :
    (iblk2 V c 2 t : Vec Ideal S128x47 .f32) = (V c main_arg8 : S128x47.Idx → Elt Ideal .f32) := by
  obtain ⟨-, -, -, -, e0, e1, -⟩ := idx2 t
  funext y
  unfold iblk2
  rw [View.read_apply]
  show V c main_arg8 _ = V c main_arg8 _
  congr 1
  funext a
  apply Fin.ext
  match a with
  | ⟨0, _⟩ => show win2_2.index t 0 * 128 + 1 * (y 0).val = (y 0).val; rw [e0]; omega
  | ⟨1, _⟩ => show win2_2.index t 1 * 47 + 1 * (y 1).val = (y 1).val; rw [e1]; omega

/-- The right weight's block is the whole matrix at every point. -/
theorem read2_3 (c : Dev nD) (t : Fin cfg2.N) :
    (iblk2 V c 3 t : Vec Ideal S128x47 .f32) = (V c main_arg9 : S128x47.Idx → Elt Ideal .f32) := by
  obtain ⟨-, -, -, -, -, -, e0, e1, -⟩ := idx2 t
  funext y
  unfold iblk2
  rw [View.read_apply]
  show V c main_arg9 _ = V c main_arg9 _
  congr 1
  funext a
  apply Fin.ext
  match a with
  | ⟨0, _⟩ => show win2_3.index t 0 * 128 + 1 * (y 0).val = (y 0).val; rw [e0]; omega
  | ⟨1, _⟩ => show win2_3.index t 1 * 47 + 1 * (y 1).val = (y 1).val; rw [e1]; omega

/-- The bias row's block is the whole row at every point. -/
theorem read2_4 (c : Dev nD) (t : Fin cfg2.N) :
    (iblk2 V c 4 t : Vec Ideal S1x47 .f32) = (V c main_v15 : S1x47.Idx → Elt Ideal .f32) := by
  obtain ⟨-, -, -, -, -, -, -, -, e0, e1, -⟩ := idx2 t
  funext y
  unfold iblk2
  rw [View.read_apply]
  show V c main_v15 _ = V c main_v15 _
  congr 1
  funext a
  apply Fin.ext
  match a with
  | ⟨0, _⟩ => show win2_4.index t 0 * 1 + 1 * (y 0).val = (y 0).val; rw [e0]; omega
  | ⟨1, _⟩ => show win2_4.index t 1 * 47 + 1 * (y 1).val = (y 1).val; rw [e1]; omega

/-- The layer the region computes (the last: a row-wise log-softmax), of the arrays it is entered with. -/
abbrev layer2 (c : Dev nD) : S50000x47.Idx → Elt Ideal .f32 :=
  Sage.lsmLayer (V c main_v53 : S50000x128.Idx → Elt Ideal .f32) (V c main_v41 : S50000x128.Idx → Elt Ideal .f32)
    (V c main_arg8 : S128x47.Idx → Elt Ideal .f32) (V c main_arg9 : S128x47.Idx → Elt Ideal .f32) (V c main_v15 : S1x47.Idx → Elt Ideal .f32)

/-- What point t writes back is block t of the layer. -/
theorem flushed2 (c : Dev nD) (t : Fin cfg2.N) :
    (dat2 V c).flushed 5 t = ((cfg2.win 5).blk t).view.read (Elt Ideal) (layer2 V c) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x47) hz, View.ld_unit_zero (S := S1x47) hz]
  rw [read2_2 V c t, read2_3 V c t, read2_4 V c t]
  obtain ⟨-, -, -, -, -, -, -, -, -, -, e0, e1⟩ := idx2 t
  have ht := lt25_2 t
  funext y
  obtain ⟨p, q, rfl⟩ : ∃ (p : Fin 2000) (q : Fin 47), y = ix2 p q := ⟨y 0, y 1, eq_ix2 y⟩
  have hemb : ((cfg2.win 5).blk t).view.emb (ix2 p q) = (ix2 (⟨2000 * t.val + p.val, by omega⟩ : Fin 50000) q : S50000x47.Idx) := by
    funext a
    apply Fin.ext
    match a with
    | ⟨0, _⟩ => show win2_5.index t 0 * 2000 + 1 * p.val = 2000 * t.val + p.val; rw [e0]; omega
    | ⟨1, _⟩ => show win2_5.index t 1 * 47 + 1 * q.val = q.val; rw [e1]; omega
  show k2_pay1 (iblk2 V c 0 t) (iblk2 V c 1 t) _ _ _ (ix2 p q) = layer2 V c (((cfg2.win 5).blk t).view.emb (ix2 p q))
  rw [hemb]
  refine (Rows.pay2_at (iblk2 V c 0 t) (iblk2 V c 1 t) _ _ _ p q).trans ?_
  refine congrArg (fun z => Sage.lsmRow z q) (funext fun q' => ?_)
  exact Sage.aff_congr _ _ _ _ _ _ _ p ⟨2000 * t.val + p.val, by omega⟩
    (fun k => read2_0 V c t (ix2 p k) (ix2 ⟨2000 * t.val + p.val, by omega⟩ k) rfl rfl)
    (fun k => read2_1 V c t (ix2 p k) (ix2 ⟨2000 * t.val + p.val, by omega⟩ k) rfl rfl) q'

/-- An index of the result is in point t's block iff each coordinate is in the block's range on its axis. -/
theorem mem_blk2 (t : Fin cfg2.N) (i : S50000x47.Idx) :
    i ∈ ((cfg2.win 5).blk t).view.set ↔ ∀ a : Fin 2, win2_5.index t a * S2000x47.size a ≤ (i a).val ∧ (i a).val < win2_5.index t a * S2000x47.size a + S2000x47.size a := by
  show i ∈ ((View.whole main_v54).slice (win2_5.rect t)).set ↔ _
  rw [View.set_slice_whole, Rect.mem_set_unit]
  exact Iff.rfl

/-- The 25 row blocks cover the result: row r is in block r / 2000. -/
theorem cover2 (i : S50000x47.Idx) : ∃ t : Fin cfg2.N, (cfg2.win 5).flush t = true ∧ i ∈ ((cfg2.win 5).blk t).view.set := by
  have hi0 : (i 0).val < 50000 := idx2_lt0 i
  have hi1 : (i 1).val < 47 := idx2_lt1 i
  let t : Fin cfg2.N := ⟨(i 0).val / 2000, by rw [show cfg2.N = 25 from N_2]; omega⟩
  obtain ⟨-, -, -, -, -, -, -, -, -, -, e0, e1⟩ := idx2 t
  refine ⟨t, flush2_5 t, ?_⟩
  rw [mem_blk2]
  intro a
  match a with
  | ⟨0, _⟩ => show win2_5.index t 0 * 2000 ≤ (i 0).val ∧ (i 0).val < win2_5.index t 0 * 2000 + 2000; rw [e0]; show (i 0).val / 2000 * 2000 ≤ (i 0).val ∧ (i 0).val < (i 0).val / 2000 * 2000 + 2000; omega
  | ⟨1, _⟩ => show win2_5.index t 1 * 47 ≤ (i 1).val ∧ (i 1).val < win2_5.index t 1 * 47 + 47; rw [e1]; omega

/-- The result array of region 2 ends holding the layer of the arrays the region was entered with. -/
theorem final2 (c : Dev nD) : (dat2 V c).arrAt 5 cfg2.N = layer2 V c :=
  (dat2 V c).arrAt_eq_of_cover 5 (layer2 V c) (fun t _ => flushed2 V c t) cover2

end Cert.KernelIdeal.Blocks

end
-- ==== Proof.LibColumnBroadcast.lean ====
/-
  A per-row quantity broadcast over a matrix, read at one entry.  A vector over the N rows is first laid out as the column
  [N, 1] and the column is then repeated over the D columns of an [N, D] matrix; entry (r, q) of the result is the vector's
  entry r, whatever q.  Also: a rank-0 constant broadcast to any shape reads the constant's value everywhere.  Over generic
  extents, at any element type (the constant at the extended reals).
-/
import Idealize.ShloMosaic.Lib.Pipeline.Value
import Idealize.ShloMosaic.Lib.ValueIdx

namespace Cert.LibColumnBroadcast

open Idealize.ShloMosaic Idealize.ShloMosaic.ValueIdx

variable {α : Type}

/-- A vector over the rows laid out as a column reads, at (r, 0), the vector at r. -/
theorem colOfVec_apply {N : ℕ} (v : (⟨1, ![N]⟩ : Shape).Idx → α)
    (h₁ : (⟨1, ![N]⟩ : Shape).BroadcastsInDim ⟨2, ![N, 1]⟩ ![0]) (r : Fin N) :
    broadcastInDim (⟨2, ![N, 1]⟩ : Shape) ![0] h₁ v (ix2 r (0 : Fin 1)) = v (ix1 r) := by
  refine broadcastInDim_apply ![0] h₁ v _ (ix1 r) fun ax => ?_
  match ax with
  | ⟨0, _⟩ =>
    show r.val = if N = 1 then 0 else r.val
    split
    · have := r.isLt; omega
    · rfl

/-- A column repeated over D columns reads, at (r, q), the column at (r, 0). -/
theorem colsOfCol_apply {N D : ℕ} (w : (⟨2, ![N, 1]⟩ : Shape).Idx → α)
    (h₂ : (⟨2, ![N, 1]⟩ : Shape).BroadcastsInDim ⟨2, ![N, D]⟩ ![0, 1]) (r : Fin N) (q : Fin D) :
    broadcastInDim (⟨2, ![N, D]⟩ : Shape) ![0, 1] h₂ w (ix2 r q) = w (ix2 r (0 : Fin 1)) := by
  refine broadcastInDim_apply ![0, 1] h₂ w (ix2 r q) (ix2 r (0 : Fin 1)) fun ax => ?_
  match ax with
  | ⟨0, _⟩ =>
    show r.val = if N = 1 then 0 else r.val
    split
    · have := r.isLt; omega
    · rfl
  | ⟨1, _⟩ => rfl

/-- A vector over the rows, as a column, repeated over the columns: entry (r, q) is the vector at r. -/
theorem colsOfVec_apply {N D : ℕ} (v : (⟨1, ![N]⟩ : Shape).Idx → α)
    (h₁ : (⟨1, ![N]⟩ : Shape).BroadcastsInDim ⟨2, ![N, 1]⟩ ![0])
    (h₂ : (⟨2, ![N, 1]⟩ : Shape).BroadcastsInDim ⟨2, ![N, D]⟩ ![0, 1]) (r : Fin N) (q : Fin D) :
    broadcastInDim (⟨2, ![N, D]⟩ : Shape) ![0, 1] h₂ (broadcastInDim (⟨2, ![N, 1]⟩ : Shape) ![0] h₁ v) (ix2 r q) = v (ix1 r) :=
  (colsOfCol_apply _ h₂ r q).trans (colOfVec_apply v h₁ r)

/-- A rank-0 float constant broadcast to any shape reads, at every index, the extended real its word denotes. -/
theorem splat_apply {s : Shape} (h₀ : (⟨0, ![]⟩ : Shape).BroadcastsInDim s ![]) (w : BitVec 32) (j : s.Idx) :
    broadcastInDim s ![] h₀ (constant (F := Ideal) (⟨0, ![]⟩ : Shape) .f32 w) j = Ideal.ofBits .f32 w := by
  rw [broadcastInDim_apply ![] h₀ _ j ix0 (fun ax => ax.elim0), constant_apply]

end Cert.LibColumnBroadcast
-- ==== Proof.KernelHost.lean ====
/-
  The host side of the kernel's program, read as values.  Between the pallas_calls the host forms, for a feature array h,
  the mean over incoming edges: the rows h[src] gathered along the edges, summed into their destination rows, times the
  reciprocal of the destination's clamped in-degree (computed once, before the first layer).  This module names that map
  (`meanOf`), reads each region's input arrays off the fold of host operations and write-backs that the frame carries
  from the launch memory, and composes the three layers: the result buffer ends holding the log-softmax layer of the second
  hidden layer of the first hidden layer of the input features.
-/
import proofs.«148366_j43800076484795_1_alg».proof.Proof.Gen.KernelIdeal.Frame
import proofs.«148366_j43800076484795_1_alg».proof.Proof.KernelBlocks
import proofs.«148366_j43800076484795_1_alg».proof.Proof.KernelBlocks1
import proofs.«148366_j43800076484795_1_alg».proof.Proof.KernelBlocks2
import proofs.«148366_j43800076484795_1_alg».proof.Proof.LibColumnBroadcast
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.ShloMosaic.StableHlo
open Idealize.SL.Sem

section Maps

variable {F : FTy → Type} [FloatOps F]

/-- The source node of every edge: row 0 of the edge list. -/
def srcOf (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The destination node of every edge: row 1 of the edge list. -/
def dstOf (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The rows `h[src]` gathered along the edges (a negative id counted from the end) and summed into their destination rows. -/
def aggOf (s d : (⟨S800000, .i32⟩ : BufTy).Contents (Elt F)) (h : (⟨S50000x128, .f32⟩ : BufTy).Contents (Elt F)) :
    (⟨S50000x128, .f32⟩ : BufTy).Contents (Elt F) :=
  Host.scatterAdd scatter_S50000x128_S800000x1_S800000x128_1_0_0_1 (broadcastInDim S50000x128 ![] bcast_S_S50000x128 (constant S_ .f32 0x00000000#32))
    (broadcastInDim S800000x1 ![0] bcast_S800000_S800000x1_0 d)
    (Host.gather gather_S50000x128_S800000x1_S800000x128_1_0_n_n_0_1_1128 h
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- The in-degree of every node (a 1 summed into the destination of every edge), clamped below by 1. -/
def cntOf (d : (⟨S800000, .i32⟩ : BufTy).Contents (Elt F)) : (⟨S50000, .f32⟩ : BufTy).Contents (Elt F) :=
  maximumf
    (Host.scatterAdd scatter_S50000_S800000x1_S800000_n_0_0_1 (broadcastInDim S50000 ![] bcast_S_S50000 (constant S_ .f32 0x00000000#32))
      (broadcastInDim S800000x1 ![0] bcast_S800000_S800000x1_0 d) (broadcastInDim S800000 ![] bcast_S_S800000 (constant S_ .f32 0x3F800000#32)))
    (broadcastInDim S50000 ![] bcast_S_S50000 (constant S_ .f32 0x3F800000#32))

/-- One over the clamped in-degree, as a column over the nodes. -/
def invOf (d : (⟨S800000, .i32⟩ : BufTy).Contents (Elt F)) : (⟨S50000x1, .f32⟩ : BufTy).Contents (Elt F) :=
  broadcastInDim S50000x1 ![0] bcast_S50000_S50000x1_0
    (Host.divf (broadcastInDim S50000 ![] bcast_S_S50000 (constant S_ .f32 0x3F800000#32)) (cntOf d))

/-- The mean of `h` over incoming edges, as the kernel's program forms it: the summed rows times the node's reciprocal
    clamped in-degree. -/
def meanOf (s d : (⟨S800000, .i32⟩ : BufTy).Contents (Elt F)) (inv : (⟨S50000x1, .f32⟩ : BufTy).Contents (Elt F))
    (h : (⟨S50000x128, .f32⟩ : BufTy).Contents (Elt F)) : (⟨S50000x128, .f32⟩ : BufTy).Contents (Elt F) :=
  mulf (aggOf s d h) (broadcastInDim S50000x128 ![0, 1] bcast_S50000x1_S50000x128_0_1 inv)

/-- The same mean as a quotient: the summed rows divided by the node's clamped in-degree. -/
def meanDivOf (s d : (⟨S800000, .i32⟩ : BufTy).Contents (Elt F)) (h : (⟨S50000x128, .f32⟩ : BufTy).Contents (Elt F)) :
    (⟨S50000x128, .f32⟩ : BufTy).Contents (Elt F) :=
  Host.divf (aggOf s d h)
    (broadcastInDim S50000x128 ![0, 1] bcast_S50000x1_S50000x128_0_1 (broadcastInDim S50000x1 ![0] bcast_S50000_S50000x1_0 (cntOf d)))

variable (m : (ℓ : Loc nD τ sig) → Buf (Elt F) ℓ) (ρ : Dev nD → PrngReg)

/-! ## Before region 0 -/

theorem W1_v27 (c : Dev nD) : W1 m ρ c (Proc.devRef .tc main_v27)
    = meanOf (srcOf (m ((c : Thread nD τ).loc main_arg1))) (dstOf (m ((c : Thread nD τ).loc main_arg1)))
        (invOf (dstOf (m ((c : Thread nD τ).loc main_arg1)))) (m ((c : Thread nD τ).loc main_arg0)) := by
  show StableHlo.after hostOps0 (W0 m ρ c) (Proc.devRef .tc main_v27) = _
  after_results_simp
  rfl
theorem W1_v1 (c : Dev nD) : W1 m ρ c (Proc.devRef .tc main_v1) = srcOf (m ((c : Thread nD τ).loc main_arg1)) := by
  show StableHlo.after hostOps0 (W0 m ρ c) (Proc.devRef .tc main_v1) = _
  after_results_simp
  rfl
theorem W1_v3 (c : Dev nD) : W1 m ρ c (Proc.devRef .tc main_v3) = dstOf (m ((c : Thread nD τ).loc main_arg1)) := by
  show StableHlo.after hostOps0 (W0 m ρ c) (Proc.devRef .tc main_v3) = _
  after_results_simp
  rfl
theorem W1_v12 (c : Dev nD) : W1 m ρ c (Proc.devRef .tc main_v12) = invOf (dstOf (m ((c : Thread nD τ).loc main_arg1))) := by
  show StableHlo.after hostOps0 (W0 m ρ c) (Proc.devRef .tc main_v12) = _
  after_results_simp
  rfl
theorem W1_v13 (c : Dev nD) : W1 m ρ c (Proc.devRef .tc main_v13) = shapeCast _ (m ((c : Thread nD τ).loc main_arg4)) shapeCasts_S128_S1x128 := by
  show StableHlo.after hostOps0 (W0 m ρ c) (Proc.devRef .tc main_v13) = _
  after_results_simp
  rfl
theorem W1_v14 (c : Dev nD) : W1 m ρ c (Proc.devRef .tc main_v14) = shapeCast _ (m ((c : Thread nD τ).loc main_arg7)) shapeCasts_S128_S1x128 := by
  show StableHlo.after hostOps0 (W0 m ρ c) (Proc.devRef .tc main_v14) = _
  after_results_simp
  rfl
theorem W1_v15 (c : Dev nD) : W1 m ρ c (Proc.devRef .tc main_v15) = shapeCast _ (m ((c : Thread nD τ).loc main_arg10)) shapeCasts_S47_S1x47 := by
  show StableHlo.after hostOps0 (W0 m ρ c) (Proc.devRef .tc main_v15) = _
  after_results_simp
  rfl
theorem W1_arg0 (c : Dev nD) : W1 m ρ c (Proc.devRef .tc main_arg0) = m ((c : Thread nD τ).loc main_arg0) := by
  show StableHlo.after hostOps0 (W0 m ρ c) (Proc.devRef .tc main_arg0) = _
  after_results_simp
theorem W1_arg2 (c : Dev nD) : W1 m ρ c (Proc.devRef .tc main_arg2) = m ((c : Thread nD τ).loc main_arg2) := by
  show StableHlo.after hostOps0 (W0 m ρ c) (Proc.devRef .tc main_arg2) = _
  after_results_simp
theorem W1_arg3 (c : Dev nD) : W1 m ρ c (Proc.devRef .tc main_arg3) = m ((c : Thread nD τ).loc main_arg3) := by
  show StableHlo.after hostOps0 (W0 m ρ c) (Proc.devRef .tc main_arg3) = _
  after_results_simp
theorem W1_arg5 (c : Dev nD) : W1 m ρ c (Proc.devRef .tc main_arg5) = m ((c : Thread nD τ).loc main_arg5) := by
  show StableHlo.after hostOps0 (W0 m ρ c) (Proc.devRef .tc main_arg5) = _
  after_results_simp
theorem W1_arg6 (c : Dev nD) : W1 m ρ c (Proc.devRef .tc main_arg6) = m ((c : Thread nD τ).loc main_arg6) := by
  show StableHlo.after hostOps0 (W0 m ρ c) (Proc.devRef .tc main_arg6) = _
  after_results_simp
theorem W1_arg8 (c : Dev nD) : W1 m ρ c (Proc.devRef .tc main_arg8) = m ((c : Thread nD τ).loc main_arg8) := by
  show StableHlo.after hostOps0 (W0 m ρ c) (Proc.devRef .tc main_arg8) = _
  after_results_simp
theorem W1_arg9 (c : Dev nD) : W1 m ρ c (Proc.devRef .tc main_arg9) = m ((c : Thread nD τ).loc main_arg9) := by
  show StableHlo.after hostOps0 (W0 m ρ c) (Proc.devRef .tc main_arg9) = _
  after_results_simp

/-! ## Between region 0 and region 1 -/

theorem W3_v40 (c : Dev nD) : W3 m ρ c (Proc.devRef .tc main_v40)
    = meanOf (W2 m ρ c (Proc.devRef .tc main_v1)) (W2 m ρ c (Proc.devRef .tc main_v3)) (W2 m ρ c (Proc.devRef .tc main_v12))
        (W2 m ρ c (Proc.devRef .tc main_v28)) := by
  show StableHlo.after hostOps1 (W2 m ρ c) (Proc.devRef .tc main_v40) = _
  after_results_simp
  rfl
/-- What the stretch between the first two regions does not write it leaves as region 0 left it. -/
theorem W3_keep (c : Dev nD) (b : Ref sig .tc)
    (hb : b = main_v28 ∨ b = main_arg5 ∨ b = main_arg6 ∨ b = main_v14 ∨ b = main_v1 ∨ b = main_v3 ∨ b = main_v12 ∨ b = main_arg8 ∨ b = main_arg9 ∨ b = main_v15) :
    W3 m ρ c (Proc.devRef .tc b) = W2 m ρ c (Proc.devRef .tc b) := by
  show StableHlo.after hostOps1 (W2 m ρ c) (Proc.devRef .tc b) = _
  rcases hb with rfl | rfl | rfl | rfl | rfl | rfl | rfl | rfl | rfl | rfl <;> after_results_simp

/-! ## Between region 1 and region 2 -/

theorem W5_v53 (c : Dev nD) : W5 m ρ c (Proc.devRef .tc main_v53)
    = meanOf (W4 m ρ c (Proc.devRef .tc main_v1)) (W4 m ρ c (Proc.devRef .tc main_v3)) (W4 m ρ c (Proc.devRef .tc main_v12))
        (W4 m ρ c (Proc.devRef .tc main_v41)) := by
  show StableHlo.after hostOps2 (W4 m ρ c) (Proc.devRef .tc main_v53) = _
  after_results_simp
  rfl
/-- What the stretch between the last two regions does not write it leaves as region 1 left it. -/
theorem W5_keep (c : Dev nD) (b : Ref sig .tc)
    (hb : b = main_v41 ∨ b = main_arg8 ∨ b = main_arg9 ∨ b = main_v15) :
    W5 m ρ c (Proc.devRef .tc b) = W4 m ρ c (Proc.devRef .tc b) := by
  show StableHlo.after hostOps2 (W4 m ρ c) (Proc.devRef .tc b) = _
  rcases hb with rfl | rfl | rfl | rfl <;> after_results_simp

/-! ## The two spellings of the mean agree -/

open Idealize.ShloMosaic.ValueIdx in
/-- For ANY array of summed rows `A` and ANY vector of counts: `A` times the column of reciprocals of the counts clamped
    below by 1, and `A` divided by the column of clamped counts, agree entry by entry on the extended reals. -/
theorem mul_recip_eq_div (A : FVec Ideal S50000x128 .f32) (cnt0 : FVec Ideal S50000 .f32) :
    mulf A (broadcastInDim S50000x128 ![0, 1] bcast_S50000x1_S50000x128_0_1 (broadcastInDim S50000x1 ![0] bcast_S50000_S50000x1_0
        (Host.divf (broadcastInDim S50000 ![] bcast_S_S50000 (constant (F := Ideal) S_ .f32 0x3F800000#32))
          (maximumf cnt0 (broadcastInDim S50000 ![] bcast_S_S50000 (constant (F := Ideal) S_ .f32 0x3F800000#32))))))
      = Host.divf A (broadcastInDim S50000x128 ![0, 1] bcast_S50000x1_S50000x128_0_1 (broadcastInDim S50000x1 ![0] bcast_S50000_S50000x1_0
        (maximumf cnt0 (broadcastInDim S50000 ![] bcast_S_S50000 (constant (F := Ideal) S_ .f32 0x3F800000#32))))) := by
  funext i
  obtain ⟨r, q, rfl⟩ : ∃ (r : Fin 50000) (q : Fin 128), i = ix2 r q := ⟨i 0, i 1, eq_ix2 i⟩
  have hL : broadcastInDim S50000x128 ![0, 1] bcast_S50000x1_S50000x128_0_1 (broadcastInDim S50000x1 ![0] bcast_S50000_S50000x1_0
        (Host.divf (broadcastInDim S50000 ![] bcast_S_S50000 (constant (F := Ideal) S_ .f32 0x3F800000#32))
          (maximumf cnt0 (broadcastInDim S50000 ![] bcast_S_S50000 (constant (F := Ideal) S_ .f32 0x3F800000#32))))) (ix2 r q)
      = Ideal.div (Ideal.ofBits .f32 0x3F800000#32) (max (cnt0 (ix1 r)) (Ideal.ofBits .f32 0x3F800000#32)) := by
    rw [Cert.LibColumnBroadcast.colsOfVec_apply]
    show Ideal.div (broadcastInDim S50000 ![] bcast_S_S50000 (constant (F := Ideal) S_ .f32 0x3F800000#32) (ix1 r))
      (max (cnt0 (ix1 r)) (broadcastInDim S50000 ![] bcast_S_S50000 (constant (F := Ideal) S_ .f32 0x3F800000#32) (ix1 r))) = _
    rw [Cert.LibColumnBroadcast.splat_apply]
  have hR : broadcastInDim S50000x128 ![0, 1] bcast_S50000x1_S50000x128_0_1 (broadcastInDim S50000x1 ![0] bcast_S50000_S50000x1_0
        (maximumf cnt0 (broadcastInDim S50000 ![] bcast_S_S50000 (constant (F := Ideal) S_ .f32 0x3F800000#32)))) (ix2 r q)
      = max (cnt0 (ix1 r)) (Ideal.ofBits .f32 0x3F800000#32) := by
    rw [Cert.LibColumnBroadcast.colsOfVec_apply, maximumf_apply, Cert.LibColumnBroadcast.splat_apply]
  show A (ix2 r q) * _ = Ideal.div (A (ix2 r q)) _
  rw [hL, hR]
  exact Sage.mul_inv_count _ _

/-- So the kernel's mean (times the reciprocal) is the quotient spelling of it. -/
theorem meanOf_eq_div (s d : (⟨S800000, .i32⟩ : BufTy).Contents (Elt Ideal)) (h : (⟨S50000x128, .f32⟩ : BufTy).Contents (Elt Ideal)) :
    meanOf s d (invOf d) h = meanDivOf s d h := by
  unfold meanOf meanDivOf invOf cntOf
  exact mul_recip_eq_div _ _

end Maps

/-! ## The three layers composed -/

section Compose

variable (m : (ℓ : Loc nD τ sig) → Buf (Elt Ideal) ℓ) (ρ : Dev nD → PrngReg)

/-- The edges' source ids, destination ids and the reciprocal clamped in-degrees, of the launch memory. -/
abbrev srcs (c : Dev nD) := srcOf (F := Ideal) (m ((c : Thread nD τ).loc main_arg1))
abbrev dsts (c : Dev nD) := dstOf (F := Ideal) (m ((c : Thread nD τ).loc main_arg1))

/-- The first hidden layer, of the launch memory. -/
def hid0 (c : Dev nD) : S50000x128.Idx → Elt Ideal .f32 :=
  Sage.reluLayer (meanOf (srcs m c) (dsts m c) (invOf (dsts m c)) (m ((c : Thread nD τ).loc main_arg0)) : S50000x128.Idx → Elt Ideal .f32)
    (m ((c : Thread nD τ).loc main_arg0) : S50000x128.Idx → Elt Ideal .f32)
    (m ((c : Thread nD τ).loc main_arg2) : S128x128.Idx → Elt Ideal .f32) (m ((c : Thread nD τ).loc main_arg3) : S128x128.Idx → Elt Ideal .f32)
    (shapeCast _ (m ((c : Thread nD τ).loc main_arg4)) shapeCasts_S128_S1x128 : S1x128.Idx → Elt Ideal .f32)

/-- The second hidden layer. -/
def hid1 (c : Dev nD) : S50000x128.Idx → Elt Ideal .f32 :=
  Sage.reluLayer (meanOf (srcs m c) (dsts m c) (invOf (dsts m c)) (hid0 m c) : S50000x128.Idx → Elt Ideal .f32)
    (hid0 m c)
    (m ((c : Thread nD τ).loc main_arg5) : S128x128.Idx → Elt Ideal .f32) (m ((c : Thread nD τ).loc main_arg6) : S128x128.Idx → Elt Ideal .f32)
    (shapeCast _ (m ((c : Thread nD τ).loc main_arg7)) shapeCasts_S128_S1x128 : S1x128.Idx → Elt Ideal .f32)

/-- The result: the log-softmax layer of the second hidden layer. -/
def outp (c : Dev nD) : S50000x47.Idx → Elt Ideal .f32 :=
  Sage.lsmLayer (meanOf (srcs m c) (dsts m c) (invOf (dsts m c)) (hid1 m c) : S50000x128.Idx → Elt Ideal .f32)
    (hid1 m c)
    (m ((c : Thread nD τ).loc main_arg8) : S128x47.Idx → Elt Ideal .f32) (m ((c : Thread nD τ).loc main_arg9) : S128x47.Idx → Elt Ideal .f32)
    (shapeCast _ (m ((c : Thread nD τ).loc main_arg10)) shapeCasts_S47_S1x47 : S1x47.Idx → Elt Ideal .f32)

/-- Region 0 leaves the first hidden layer in its result buffer. -/
theorem W2_v28 (c : Dev nD) : W2 m ρ c (Proc.devRef .tc main_v28) = hid0 m c := by
  refine (W2_arr m ρ c 5).trans ((Blocks.final0 (V1 m ρ) c).trans ?_)
  show Sage.reluLayer (W1 m ρ c (Proc.devRef .tc main_v27)) (W1 m ρ c (Proc.devRef .tc main_arg0))
    (W1 m ρ c (Proc.devRef .tc main_arg2)) (W1 m ρ c (Proc.devRef .tc main_arg3)) (W1 m ρ c (Proc.devRef .tc main_v13)) = _
  rw [W1_v27, W1_arg0, W1_arg2, W1_arg3, W1_v13]
  rfl

/-- Region 1 leaves the second hidden layer in its result buffer. -/
theorem W4_v41 (c : Dev nD) : W4 m ρ c (Proc.devRef .tc main_v41) = hid1 m c := by
  refine (W4_arr m ρ c 5).trans ((Blocks.final1 (V3 m ρ) c).trans ?_)
  show Sage.reluLayer (W3 m ρ c (Proc.devRef .tc main_v40)) (W3 m ρ c (Proc.devRef .tc main_v28))
    (W3 m ρ c (Proc.devRef .tc main_arg5)) (W3 m ρ c (Proc.devRef .tc main_arg6)) (W3 m ρ c (Proc.devRef .tc main_v14)) = _
  rw [W3_v40, W3_keep m ρ c main_v28 (by decide), W3_keep m ρ c main_arg5 (by decide), W3_keep m ρ c main_arg6 (by decide),
    W3_keep m ρ c main_v14 (by decide),
    W2_of_ne m ρ c main_v1 (by decide), W2_of_ne m ρ c main_v3 (by decide), W2_of_ne m ρ c main_v12 (by decide),
    W2_of_ne m ρ c main_arg5 (by decide), W2_of_ne m ρ c main_arg6 (by decide), W2_of_ne m ρ c main_v14 (by decide),
    W2_v28, W1_v1, W1_v3, W1_v12, W1_arg5, W1_arg6, W1_v14]
  rfl

/-- Region 2 leaves the result in the result buffer. -/
theorem W6_v54 (c : Dev nD) : W6 m ρ c (Proc.devRef .tc main_v54) = outp m c := by
  refine (W6_arr m ρ c 5).trans ((Blocks.final2 (V5 m ρ) c).trans ?_)
  show Sage.lsmLayer (W5 m ρ c (Proc.devRef .tc main_v53)) (W5 m ρ c (Proc.devRef .tc main_v41))
    (W5 m ρ c (Proc.devRef .tc main_arg8)) (W5 m ρ c (Proc.devRef .tc main_arg9)) (W5 m ρ c (Proc.devRef .tc main_v15)) = _
  rw [W5_v53, W5_keep m ρ c main_v41 (by decide), W5_keep m ρ c main_arg8 (by decide), W5_keep m ρ c main_arg9 (by decide),
    W5_keep m ρ c main_v15 (by decide),
    W4_of_ne m ρ c main_v1 (by decide), W4_of_ne m ρ c main_v3 (by decide), W4_of_ne m ρ c main_v12 (by decide),
    W4_of_ne m ρ c main_arg8 (by decide), W4_of_ne m ρ c main_arg9 (by decide), W4_of_ne m ρ c main_v15 (by decide),
    W3_keep m ρ c main_v1 (by decide), W3_keep m ρ c main_v3 (by decide), W3_keep m ρ c main_v12 (by decide),
    W3_keep m ρ c main_arg8 (by decide), W3_keep m ρ c main_arg9 (by decide), W3_keep m ρ c main_v15 (by decide),
    W2_of_ne m ρ c main_v1 (by decide), W2_of_ne m ρ c main_v3 (by decide), W2_of_ne m ρ c main_v12 (by decide),
    W2_of_ne m ρ c main_arg8 (by decide), W2_of_ne m ρ c main_arg9 (by decide), W2_of_ne m ρ c main_v15 (by decide),
    W4_v41, W1_v1, W1_v3, W1_v12, W1_arg8, W1_arg9, W1_v15]
  rfl

end Compose

end Cert.KernelIdeal.Host

end
-- ==== Proof.RefFold.lean ====
/-
  The reference's run, read layer by layer.  The run of the reference leaves its result buffer at the fold of its 118 host
  operations over the launch contents.  Written as ONE term of the arguments that fold repeats each hidden layer wherever a
  later operation reads it; read instead one layer at a time — the operations through the first activation, those through
  the second, the rest — each layer's result is the stage function of the arguments, the next layer taking the previous
  layer's result (and the two edge-id vectors) over as named values.  So the result buffer ends at the last stage function
  of the arguments.
-/
import proofs.«148366_j43800076484795_1_alg».proof.Proof.RefReadP
import Idealize.ShloMosaic.Lib.Pipeline.Frame
import Idealize.ShloMosaic.Lib.StableHlo.Run

noncomputable section

namespace Cert.ReferenceIdeal.Fold

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The operations of the first layer, through its activation (an outlined function's operations written over its call's
    buffers directly). -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    binary main_v22 main_arg2 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_arg0 main_arg3 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v23 main_v24 main_v25 (addf : (⟨S50000x128, .f32⟩ : BufTy).Contents (Elt F) → (⟨S50000x128, .f32⟩ : BufTy).Contents (Elt F) → (⟨S50000x128, .f32⟩ : BufTy).Contents (Elt F)),
    unary main_arg4 main_v26 (broadcastInDim S1x128 ![1] bcast_S128_S1x128_1 : (⟨S128, .f32⟩ : BufTy).Contents (Elt F) → (⟨S1x128, .f32⟩ : BufTy).Contents (Elt F)),
    unary main_v26 main_v27 (broadcastInDim S50000x128 ![0, 1] bcast_S1x128_S50000x128_0_1 : (⟨S1x128, .f32⟩ : BufTy).Contents (Elt F) → (⟨S50000x128, .f32⟩ : BufTy).Contents (Elt F)),
    binary main_v25 main_v27 main_v28 (addf : (⟨S50000x128, .f32⟩ : BufTy).Contents (Elt F) → (⟨S50000x128, .f32⟩ : BufTy).Contents (Elt F) → (⟨S50000x128, .f32⟩ : BufTy).Contents (Elt F)),
    nullary main_call0_cst (constant S_ .f32 0x00000000#32),
    unary main_call0_cst main_call0_v0 ((broadcastInDim S50000x128 ![] bcast_S_S50000x128) : (⟨S_, .f32⟩ : BufTy).Contents (Elt F) → (⟨S50000x128, .f32⟩ : BufTy).Contents (Elt F)),
    binary main_v28 main_call0_v0 main_v29 ((maximumf) : (⟨S50000x128, .f32⟩ : BufTy).Contents (Elt F) → (⟨S50000x128, .f32⟩ : BufTy).Contents (Elt F) → (⟨S50000x128, .f32⟩ : BufTy).Contents (Elt F)) ]

/-- The operations of the second layer, through its activation. -/
abbrev opsB : List (HloOp τ sig (Elt F)) :=
  [ nullary main_c_4 (constantI S_ 32 0#32),
    unary main_c_4 main_v30 (broadcastInDim S800000 ![] bcast_S_S800000 : (⟨S_, .i32⟩ : BufTy).Contents (Elt F) → (⟨S800000, .i32⟩ : BufTy).Contents (Elt F)),
    binary main_v1 main_v30 main_v31 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v32 (broadcastInDim S800000 ![] bcast_S_S800000 : (⟨S_, .i32⟩ : BufTy).Contents (Elt F) → (⟨S800000, .i32⟩ : BufTy).Contents (Elt F)),
    binary main_v1 main_v32 main_v33 (addi : (⟨S800000, .i32⟩ : BufTy).Contents (Elt F) → (⟨S800000, .i32⟩ : BufTy).Contents (Elt F) → (⟨S800000, .i32⟩ : BufTy).Contents (Elt F)),
    ternary main_v31 main_v33 main_v1 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v34 main_v35 (broadcastInDim S800000x1 ![0] bcast_S800000_S800000x1_0 : (⟨S800000, .i32⟩ : BufTy).Contents (Elt F) → (⟨S800000x1, .i32⟩ : BufTy).Contents (Elt F)),
    binary main_v29 main_v35 main_v36 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_6 (constant S_ .f32 0x00000000#32),
    unary main_cst_6 main_v37 (broadcastInDim S50000x128 ![] bcast_S_S50000x128 : (⟨S_, .f32⟩ : BufTy).Contents (Elt F) → (⟨S50000x128, .f32⟩ : BufTy).Contents (Elt F)),
    unary main_v3 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_7 (constant S_ .f32 0x3F800000#32),
    unary main_cst_7 main_v40 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v41 (broadcastInDim S50000 ![] bcast_S_S50000 : (⟨S_, .f32⟩ : BufTy).Contents (Elt F) → (⟨S50000, .f32⟩ : BufTy).Contents (Elt F)),
    unary main_v3 main_v42 (broadcastInDim S800000x1 ![0] bcast_S800000_S800000x1_0 : (⟨S800000, .i32⟩ : BufTy).Contents (Elt F) → (⟨S800000x1, .i32⟩ : BufTy).Contents (Elt F)),
    ternary main_v41 main_v42 main_v40 main_v43 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v44 (broadcastInDim S50000 ![] bcast_S_S50000 : (⟨S_, .f32⟩ : BufTy).Contents (Elt F) → (⟨S50000, .f32⟩ : BufTy).Contents (Elt F)),
    binary main_v43 main_v44 main_v45 (maximumf : (⟨S50000, .f32⟩ : BufTy).Contents (Elt F) → (⟨S50000, .f32⟩ : BufTy).Contents (Elt F) → (⟨S50000, .f32⟩ : BufTy).Contents (Elt F)),
    unary main_v45 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x128 ![0, 1] bcast_S50000x1_S50000x128_0_1 : (⟨S50000x1, .f32⟩ : BufTy).Contents (Elt F) → (⟨S50000x128, .f32⟩ : BufTy).Contents (Elt F)),
    binary main_v39 main_v47 main_v48 (Host.divf : (⟨S50000x128, .f32⟩ : BufTy).Contents (Elt F) → (⟨S50000x128, .f32⟩ : BufTy).Contents (Elt F) → (⟨S50000x128, .f32⟩ : BufTy).Contents (Elt F)),
    binary main_v48 main_arg5 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v29 main_arg6 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v49 main_v50 main_v51 (addf : (⟨S50000x128, .f32⟩ : BufTy).Contents (Elt F) → (⟨S50000x128, .f32⟩ : BufTy).Contents (Elt F) → (⟨S50000x128, .f32⟩ : BufTy).Contents (Elt F)),
    unary main_arg7 main_v52 (broadcastInDim S1x128 ![1] bcast_S128_S1x128_1 : (⟨S128, .f32⟩ : BufTy).Contents (Elt F) → (⟨S1x128, .f32⟩ : BufTy).Contents (Elt F)),
    unary main_v52 main_v53 (broadcastInDim S50000x128 ![0, 1] bcast_S1x128_S50000x128_0_1 : (⟨S1x128, .f32⟩ : BufTy).Contents (Elt F) → (⟨S50000x128, .f32⟩ : BufTy).Contents (Elt F)),
    binary main_v51 main_v53 main_v54 (addf : (⟨S50000x128, .f32⟩ : BufTy).Contents (Elt F) → (⟨S50000x128, .f32⟩ : BufTy).Contents (Elt F) → (⟨S50000x128, .f32⟩ : BufTy).Contents (Elt F)),
    nullary main_call1_cst (constant S_ .f32 0x00000000#32),
    unary main_call1_cst main_call1_v0 ((broadcastInDim S50000x128 ![] bcast_S_S50000x128) : (⟨S_, .f32⟩ : BufTy).Contents (Elt F) → (⟨S50000x128, .f32⟩ : BufTy).Contents (Elt F)),
    binary main_v54 main_call1_v0 main_v55 ((maximumf) : (⟨S50000x128, .f32⟩ : BufTy).Contents (Elt F) → (⟨S50000x128, .f32⟩ : BufTy).Contents (Elt F) → (⟨S50000x128, .f32⟩ : BufTy).Contents (Elt F)) ]

/-- The operations of the last layer's affine map. -/
abbrev opsC : List (HloOp τ sig (Elt F)) :=
  [ nullary main_c_10 (constantI S_ 32 0#32),
    unary main_c_10 main_v56 (broadcastInDim S800000 ![] bcast_S_S800000 : (⟨S_, .i32⟩ : BufTy).Contents (Elt F) → (⟨S800000, .i32⟩ : BufTy).Contents (Elt F)),
    binary main_v1 main_v56 main_v57 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v58 (broadcastInDim S800000 ![] bcast_S_S800000 : (⟨S_, .i32⟩ : BufTy).Contents (Elt F) → (⟨S800000, .i32⟩ : BufTy).Contents (Elt F)),
    binary main_v1 main_v58 main_v59 (addi : (⟨S800000, .i32⟩ : BufTy).Contents (Elt F) → (⟨S800000, .i32⟩ : BufTy).Contents (Elt F) → (⟨S800000, .i32⟩ : BufTy).Contents (Elt F)),
    ternary main_v57 main_v59 main_v1 main_v60 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v60 main_v61 (broadcastInDim S800000x1 ![0] bcast_S800000_S800000x1_0 : (⟨S800000, .i32⟩ : BufTy).Contents (Elt F) → (⟨S800000x1, .i32⟩ : BufTy).Contents (Elt F)),
    binary main_v55 main_v61 main_v62 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_12 (constant S_ .f32 0x00000000#32),
    unary main_cst_12 main_v63 (broadcastInDim S50000x128 ![] bcast_S_S50000x128 : (⟨S_, .f32⟩ : BufTy).Contents (Elt F) → (⟨S50000x128, .f32⟩ : BufTy).Contents (Elt F)),
    unary main_v3 main_v64 (broadcastInDim S800000x1 ![0] bcast_S800000_S800000x1_0 : (⟨S800000, .i32⟩ : BufTy).Contents (Elt F) → (⟨S800000x1, .i32⟩ : BufTy).Contents (Elt F)),
    ternary main_v63 main_v64 main_v62 main_v65 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_13 (constant S_ .f32 0x3F800000#32),
    unary main_cst_13 main_v66 (broadcastInDim S800000 ![] bcast_S_S800000 : (⟨S_, .f32⟩ : BufTy).Contents (Elt F) → (⟨S800000, .f32⟩ : BufTy).Contents (Elt F)),
    nullary main_cst_14 (constant S_ .f32 0x00000000#32),
    unary main_cst_14 main_v67 (broadcastInDim S50000 ![] bcast_S_S50000 : (⟨S_, .f32⟩ : BufTy).Contents (Elt F) → (⟨S50000, .f32⟩ : BufTy).Contents (Elt F)),
    unary main_v3 main_v68 (broadcastInDim S800000x1 ![0] bcast_S800000_S800000x1_0 : (⟨S800000, .i32⟩ : BufTy).Contents (Elt F) → (⟨S800000x1, .i32⟩ : BufTy).Contents (Elt F)),
    ternary main_v67 main_v68 main_v66 main_v69 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_15 (constant S_ .f32 0x3F800000#32),
    unary main_cst_15 main_v70 (broadcastInDim S50000 ![] bcast_S_S50000 : (⟨S_, .f32⟩ : BufTy).Contents (Elt F) → (⟨S50000, .f32⟩ : BufTy).Contents (Elt F)),
    binary main_v69 main_v70 main_v71 (maximumf : (⟨S50000, .f32⟩ : BufTy).Contents (Elt F) → (⟨S50000, .f32⟩ : BufTy).Contents (Elt F) → (⟨S50000, .f32⟩ : BufTy).Contents (Elt F)),
    unary main_v71 main_v72 (broadcastInDim S50000x1 ![0] bcast_S50000_S50000x1_0 : (⟨S50000, .f32⟩ : BufTy).Contents (Elt F) → (⟨S50000x1, .f32⟩ : BufTy).Contents (Elt F)),
    unary main_v72 main_v73 (broadcastInDim S50000x128 ![0, 1] bcast_S50000x1_S50000x128_0_1 : (⟨S50000x1, .f32⟩ : BufTy).Contents (Elt F) → (⟨S50000x128, .f32⟩ : BufTy).Contents (Elt F)),
    binary main_v65 main_v73 main_v74 (Host.divf : (⟨S50000x128, .f32⟩ : BufTy).Contents (Elt F) → (⟨S50000x128, .f32⟩ : BufTy).Contents (Elt F) → (⟨S50000x128, .f32⟩ : BufTy).Contents (Elt F)),
    binary main_v74 main_arg8 main_v75 ((fun l r => Host.dotGeneral dot_S50000x128_S128x47_S50000x47_1_0_0_1_n_n none l r) : (⟨S50000x128, .f32⟩ : BufTy).Contents (Elt F) → (⟨S128x47, .f32⟩ : BufTy).Contents (Elt F) → (⟨S50000x47, .f32⟩ : BufTy).Contents (Elt F)),
    binary main_v55 main_arg9 main_v76 ((fun l r => Host.dotGeneral dot_S50000x128_S128x47_S50000x47_1_0_0_1_n_n none l r) : (⟨S50000x128, .f32⟩ : BufTy).Contents (Elt F) → (⟨S128x47, .f32⟩ : BufTy).Contents (Elt F) → (⟨S50000x47, .f32⟩ : BufTy).Contents (Elt F)),
    binary main_v75 main_v76 main_v77 (addf : (⟨S50000x47, .f32⟩ : BufTy).Contents (Elt F) → (⟨S50000x47, .f32⟩ : BufTy).Contents (Elt F) → (⟨S50000x47, .f32⟩ : BufTy).Contents (Elt F)),
    unary main_arg10 main_v78 (broadcastInDim S1x47 ![1] bcast_S47_S1x47_1 : (⟨S47, .f32⟩ : BufTy).Contents (Elt F) → (⟨S1x47, .f32⟩ : BufTy).Contents (Elt F)),
    unary main_v78 main_v79 (broadcastInDim S50000x47 ![0, 1] bcast_S1x47_S50000x47_0_1 : (⟨S1x47, .f32⟩ : BufTy).Contents (Elt F) → (⟨S50000x47, .f32⟩ : BufTy).Contents (Elt F)),
    binary main_v77 main_v79 main_v80 (addf : (⟨S50000x47, .f32⟩ : BufTy).Contents (Elt F) → (⟨S50000x47, .f32⟩ : BufTy).Contents (Elt F) → (⟨S50000x47, .f32⟩ : BufTy).Contents (Elt F)) ]

/-- The operations of the row-wise log-softmax. -/
abbrev opsD : List (HloOp τ sig (Elt F)) :=
  [ nullary main_call2_cst (constant S_ .f32 0xFF800000#32),
    TRef.binary (TRef.of (T := ⟨S50000x47, .f32⟩) main_v80) (TRef.of (T := ⟨S_, .f32⟩) main_call2_cst) (TRef.of (T := ⟨S50000, .f32⟩) main_call2_v0) (fun x v => Host.reduce FloatOps.maximumf x v reducesTo_S50000x47_S50000_d1 h_S_),
    nullary main_call2_cst_0 (constant S_ .f32 0xFF800000#32),
    unary main_call2_cst_0 main_call2_v1 ((broadcastInDim S50000 ![] bcast_S_S50000) : (⟨S_, .f32⟩ : BufTy).Contents (Elt F) → (⟨S50000, .f32⟩ : BufTy).Contents (Elt F)),
    binary main_call2_v1 main_call2_v0 main_call2_v2 ((maximumf) : (⟨S50000, .f32⟩ : BufTy).Contents (Elt F) → (⟨S50000, .f32⟩ : BufTy).Contents (Elt F) → (⟨S50000, .f32⟩ : BufTy).Contents (Elt F)),
    unary main_call2_v2 main_call2_v3 ((broadcastInDim S50000x1 ![0] bcast_S50000_S50000x1_0) : (⟨S50000, .f32⟩ : BufTy).Contents (Elt F) → (⟨S50000x1, .f32⟩ : BufTy).Contents (Elt F)),
    unary main_call2_v3 main_call2_v4 ((broadcastInDim S50000x47 ![0, 1] bcast_S50000x1_S50000x47_0_1) : (⟨S50000x1, .f32⟩ : BufTy).Contents (Elt F) → (⟨S50000x47, .f32⟩ : BufTy).Contents (Elt F)),
    binary main_v80 main_call2_v4 main_call2_v5 ((subf) : (⟨S50000x47, .f32⟩ : BufTy).Contents (Elt F) → (⟨S50000x47, .f32⟩ : BufTy).Contents (Elt F) → (⟨S50000x47, .f32⟩ : BufTy).Contents (Elt F)),
    unary main_call2_v5 main_call2_v6 ((Host.exp) : (⟨S50000x47, .f32⟩ : BufTy).Contents (Elt F) → (⟨S50000x47, .f32⟩ : BufTy).Contents (Elt F)),
    nullary main_call2_cst_1 (constant S_ .f32 0x00000000#32),
    binary main_call2_v6 main_call2_cst_1 main_call2_v7 ((fun x v => Host.reduceAdd x v reducesTo_S50000x47_S50000_d1 h_S_) : (⟨S50000x47, .f32⟩ : BufTy).Contents (Elt F) → (⟨S_, .f32⟩ : BufTy).Contents (Elt F) → (⟨S50000, .f32⟩ : BufTy).Contents (Elt F)),
    unary main_call2_v7 main_call2_v8 ((broadcastInDim S50000x1 ![0] bcast_S50000_S50000x1_0) : (⟨S50000, .f32⟩ : BufTy).Contents (Elt F) → (⟨S50000x1, .f32⟩ : BufTy).Contents (Elt F)),
    unary main_call2_v8 main_call2_v9 ((Host.log) : (⟨S50000x1, .f32⟩ : BufTy).Contents (Elt F) → (⟨S50000x1, .f32⟩ : BufTy).Contents (Elt F)),
    unary main_call2_v9 main_call2_v10 ((broadcastInDim S50000x47 ![0, 1] bcast_S50000x1_S50000x47_0_1) : (⟨S50000x1, .f32⟩ : BufTy).Contents (Elt F) → (⟨S50000x47, .f32⟩ : BufTy).Contents (Elt F)),
    binary main_call2_v5 main_call2_v10 main_v81 ((subf) : (⟨S50000x47, .f32⟩ : BufTy).Contents (Elt F) → (⟨S50000x47, .f32⟩ : BufTy).Contents (Elt F) → (⟨S50000x47, .f32⟩ : BufTy).Contents (Elt F)) ]

set_option maxRecDepth 8192 in
theorem ops_split : (ops : List (HloOp τ sig (Elt F))) = opsA ++ (opsB ++ (opsC ++ opsD)) := rfl

/-- After the first layer's operations: the first hidden layer and the two edge-id vectors are their stage functions of
    the arguments, and the later layers' parameters are untouched. -/
theorem foldA (V0 : Valuation τ sig (Elt F)) :
    after opsA V0 (Proc.devRef .tc main_v29) = val_main_v29 (V0 (Proc.devRef .tc main_arg0)) (V0 (Proc.devRef .tc main_arg1)) (V0 (Proc.devRef .tc main_arg2)) (V0 (Proc.devRef .tc main_arg3)) (V0 (Proc.devRef .tc main_arg4))
    ∧ after opsA V0 (Proc.devRef .tc main_v1) = val_main_v1 (V0 (Proc.devRef .tc main_arg1))
    ∧ after opsA V0 (Proc.devRef .tc main_v3) = val_main_v3 (V0 (Proc.devRef .tc main_arg1))
    ∧ after opsA V0 (Proc.devRef .tc main_arg5) = V0 (Proc.devRef .tc main_arg5)
    ∧ after opsA V0 (Proc.devRef .tc main_arg6) = V0 (Proc.devRef .tc main_arg6)
    ∧ after opsA V0 (Proc.devRef .tc main_arg7) = V0 (Proc.devRef .tc main_arg7)
    ∧ after opsA V0 (Proc.devRef .tc main_arg8) = V0 (Proc.devRef .tc main_arg8)
    ∧ after opsA V0 (Proc.devRef .tc main_arg9) = V0 (Proc.devRef .tc main_arg9)
    ∧ after opsA V0 (Proc.devRef .tc main_arg10) = V0 (Proc.devRef .tc main_arg10) := by
  refine ⟨?_, ?_, ?_, ?_, ?_, ?_, ?_, ?_, ?_⟩
  · after_results_simp
    rfl
  · after_results_simp
    rfl
  · after_results_simp
    rfl
  all_goals after_results_simp

/-- After the second layer's operations, from contents that hold the first hidden layer and the edge-id vectors. -/
theorem foldB (VA : Valuation τ sig (Elt F)) (x0 : (⟨S50000x128, .f32⟩ : BufTy).Contents (Elt F)) (x1 : (⟨S2x800000, .i32⟩ : BufTy).Contents (Elt F))
    (x2 x3 : (⟨S128x128, .f32⟩ : BufTy).Contents (Elt F)) (x4 : (⟨S128, .f32⟩ : BufTy).Contents (Elt F))
    (h29 : VA (Proc.devRef .tc main_v29) = val_main_v29 x0 x1 x2 x3 x4)
    (h1 : VA (Proc.devRef .tc main_v1) = val_main_v1 x1) (h3 : VA (Proc.devRef .tc main_v3) = val_main_v3 x1) :
    after opsB VA (Proc.devRef .tc main_v55) = val_main_v55 x0 x1 x2 x3 x4 (VA (Proc.devRef .tc main_arg5)) (VA (Proc.devRef .tc main_arg6)) (VA (Proc.devRef .tc main_arg7))
    ∧ after opsB VA (Proc.devRef .tc main_v1) = VA (Proc.devRef .tc main_v1)
    ∧ after opsB VA (Proc.devRef .tc main_v3) = VA (Proc.devRef .tc main_v3)
    ∧ after opsB VA (Proc.devRef .tc main_arg8) = VA (Proc.devRef .tc main_arg8)
    ∧ after opsB VA (Proc.devRef .tc main_arg9) = VA (Proc.devRef .tc main_arg9)
    ∧ after opsB VA (Proc.devRef .tc main_arg10) = VA (Proc.devRef .tc main_arg10) := by
  refine ⟨?_, ?_, ?_, ?_, ?_, ?_⟩
  · after_results_simp
    rw [h29, h1, h3]
    rfl
  all_goals after_results_simp

/-- After the last layer's affine map, from contents that hold the second hidden layer and the edge-id vectors. -/
theorem foldC (VB : Valuation τ sig (Elt F)) (x0 : (⟨S50000x128, .f32⟩ : BufTy).Contents (Elt F)) (x1 : (⟨S2x800000, .i32⟩ : BufTy).Contents (Elt F))
    (x2 x3 : (⟨S128x128, .f32⟩ : BufTy).Contents (Elt F)) (x4 : (⟨S128, .f32⟩ : BufTy).Contents (Elt F))
    (x5 x6 : (⟨S128x128, .f32⟩ : BufTy).Contents (Elt F)) (x7 : (⟨S128, .f32⟩ : BufTy).Contents (Elt F))
    (h55 : VB (Proc.devRef .tc main_v55) = val_main_v55 x0 x1 x2 x3 x4 x5 x6 x7)
    (h1 : VB (Proc.devRef .tc main_v1) = val_main_v1 x1) (h3 : VB (Proc.devRef .tc main_v3) = val_main_v3 x1) :
    after opsC VB (Proc.devRef .tc main_v80) = val_main_v80 x0 x1 x2 x3 x4 x5 x6 x7 (VB (Proc.devRef .tc main_arg8)) (VB (Proc.devRef .tc main_arg9)) (VB (Proc.devRef .tc main_arg10)) := by
  after_results_simp
  rw [h55, h1, h3]
  rfl

/-- The row maximum's operation is written over typed references; at these three buffers the transport of contents
    along the reference's type is the identity. -/
theorem toBuf_v0 (v : (⟨S50000, .f32⟩ : BufTy).Contents (Elt F)) :
    (TRef.of (sig := sig) (T := ⟨S50000, .f32⟩) main_call2_v0).toBuf v = v := rfl
theorem ofBuf_v80 (v : (⟨S50000x47, .f32⟩ : BufTy).Contents (Elt F)) :
    (TRef.of (sig := sig) (T := ⟨S50000x47, .f32⟩) main_v80).ofBuf v = v := rfl
theorem ofBuf_cst (v : (⟨S_, .f32⟩ : BufTy).Contents (Elt F)) :
    (TRef.of (sig := sig) (T := ⟨S_, .f32⟩) main_call2_cst).ofBuf v = v := rfl

/-- After the log-softmax's operations, from contents that hold the last affine map. -/
theorem foldD (VC : Valuation τ sig (Elt F)) (x0 : (⟨S50000x128, .f32⟩ : BufTy).Contents (Elt F)) (x1 : (⟨S2x800000, .i32⟩ : BufTy).Contents (Elt F))
    (x2 x3 : (⟨S128x128, .f32⟩ : BufTy).Contents (Elt F)) (x4 : (⟨S128, .f32⟩ : BufTy).Contents (Elt F))
    (x5 x6 : (⟨S128x128, .f32⟩ : BufTy).Contents (Elt F)) (x7 : (⟨S128, .f32⟩ : BufTy).Contents (Elt F))
    (x8 x9 : (⟨S128x47, .f32⟩ : BufTy).Contents (Elt F)) (x10 : (⟨S47, .f32⟩ : BufTy).Contents (Elt F))
    (h80 : VC (Proc.devRef .tc main_v80) = val_main_v80 x0 x1 x2 x3 x4 x5 x6 x7 x8 x9 x10) :
    after opsD VC (Proc.devRef .tc main_v81) = val_main_v81 x0 x1 x2 x3 x4 x5 x6 x7 x8 x9 x10 := by
  after_results_simp
  simp only [toBuf_v0, ofBuf_v80, ofBuf_cst]
  rw [h80]
  rfl

/-- The fold of all the operations at the result buffer is the last stage function of the arguments. -/
theorem fold_eq (V0 : Valuation τ sig (Elt F)) :
    after ops V0 (Proc.devRef .tc main_v81) = val_main_v81 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  rw [ops_split, StableHlo.after_append, StableHlo.after_append, StableHlo.after_append]
  obtain ⟨a29, a1, a3, a5, a6, a7, a8, a9, a10⟩ := foldA V0
  generalize after opsA V0 = VA at a29 a1 a3 a5 a6 a7 a8 a9 a10 ⊢
  obtain ⟨b55, b1, b3, b8, b9, b10⟩ := foldB VA _ _ _ _ _ a29 a1 a3
  generalize after opsB VA = VB at b55 b1 b3 b8 b9 b10 ⊢
  have c80 := foldC VB _ _ _ _ _ _ _ _ b55 (b1.trans a1) (b3.trans a3)
  generalize after opsC VB = VC at c80 ⊢
  rw [foldD VC _ _ _ _ _ _ _ _ _ _ _ c80, b8, b9, b10, a5, a6, a7, a8, a9, a10]

end Cert.ReferenceIdeal.Fold

end
-- ==== Proof.ReferenceStages.lean ====
/-
  The reference's three layers as the layer functions of SageSpec.  Each stage of the reference is read at an entry
  (r, q): a matrix product is the sum over the 128 input features, a bias broadcast from a vector reads the vector at q,
  the activation is a maximum with the value of the zero word; in the last layer the row maximum is a reduction over the
  47 classes folded from −∞ (and the further maximum with −∞ changes nothing), the shifted exponentials are summed over the
  classes from 0, and the logarithm of that sum is subtracted.
-/
import proofs.«148366_j43800076484795_1_alg».proof.Proof.RefReadP
import proofs.«148366_j43800076484795_1_alg».proof.Proof.SageSpec
import Idealize.ShloMosaic.Lib.ValueIdx
import Idealize.ShloMosaic.Lib.Pipeline.Value
import Idealize.ShloMosaic.PureOps.Ideal.Laws

noncomputable section

open scoped BigOperators

namespace Cert.ReferenceIdeal.Stages

open Cert.ReferenceIdeal Cert.ReferenceIdeal.Gen Cert.ReferenceIdeal.ReadP
open Idealize.ShloMosaic Idealize.ShloMosaic.ValueIdx

/-! ### The index functions of the reference's stages at an entry `(r, q)`

A product reads its left operand at `(r, k)` and its right operand at `(k, q)`; a bias broadcast down the rows reads the
one-row matrix at `(0, q)`; a column broadcast along a row reads the column at `r`. -/

theorem lidx23 (r : Fin 50000) (q k : Fin 128) : lidx_main_v23 (ix2 r q) k = ix2 r k :=
  funext fun a => Fin.ext (by match a with | ⟨0, _⟩ => rfl | ⟨1, _⟩ => rfl)
theorem ridx23 (r : Fin 50000) (q k : Fin 128) : ridx_main_v23 (ix2 r q) k = ix2 k q :=
  funext fun a => Fin.ext (by match a with | ⟨0, _⟩ => rfl | ⟨1, _⟩ => rfl)
theorem lidx24 (r : Fin 50000) (q k : Fin 128) : lidx_main_v24 (ix2 r q) k = ix2 r k :=
  funext fun a => Fin.ext (by match a with | ⟨0, _⟩ => rfl | ⟨1, _⟩ => rfl)
theorem ridx24 (r : Fin 50000) (q k : Fin 128) : ridx_main_v24 (ix2 r q) k = ix2 k q :=
  funext fun a => Fin.ext (by match a with | ⟨0, _⟩ => rfl | ⟨1, _⟩ => rfl)
theorem idx27 (r : Fin 50000) (q : Fin 128) : idx_main_v27 (ix2 r q) = ix2 0 q :=
  funext fun a => Fin.ext (by match a with | ⟨0, _⟩ => rfl | ⟨1, _⟩ => rfl)
theorem lidx49 (r : Fin 50000) (q k : Fin 128) : lidx_main_v49 (ix2 r q) k = ix2 r k :=
  funext fun a => Fin.ext (by match a with | ⟨0, _⟩ => rfl | ⟨1, _⟩ => rfl)
theorem ridx49 (r : Fin 50000) (q k : Fin 128) : ridx_main_v49 (ix2 r q) k = ix2 k q :=
  funext fun a => Fin.ext (by match a with | ⟨0, _⟩ => rfl | ⟨1, _⟩ => rfl)
theorem lidx50 (r : Fin 50000) (q k : Fin 128) : lidx_main_v50 (ix2 r q) k = ix2 r k :=
  funext fun a => Fin.ext (by match a with | ⟨0, _⟩ => rfl | ⟨1, _⟩ => rfl)
theorem ridx50 (r : Fin 50000) (q k : Fin 128) : ridx_main_v50 (ix2 r q) k = ix2 k q :=
  funext fun a => Fin.ext (by match a with | ⟨0, _⟩ => rfl | ⟨1, _⟩ => rfl)
theorem idx53 (r : Fin 50000) (q : Fin 128) : idx_main_v53 (ix2 r q) = ix2 0 q :=
  funext fun a => Fin.ext (by match a with | ⟨0, _⟩ => rfl | ⟨1, _⟩ => rfl)
theorem lidx75 (r : Fin 50000) (q : Fin 47) (k : Fin 128) : lidx_main_v75 (ix2 r q) k = ix2 r k :=
  funext fun a => Fin.ext (by match a with | ⟨0, _⟩ => rfl | ⟨1, _⟩ => rfl)
theorem ridx75 (r : Fin 50000) (q : Fin 47) (k : Fin 128) : ridx_main_v75 (ix2 r q) k = ix2 k q :=
  funext fun a => Fin.ext (by match a with | ⟨0, _⟩ => rfl | ⟨1, _⟩ => rfl)
theorem lidx76 (r : Fin 50000) (q : Fin 47) (k : Fin 128) : lidx_main_v76 (ix2 r q) k = ix2 r k :=
  funext fun a => Fin.ext (by match a with | ⟨0, _⟩ => rfl | ⟨1, _⟩ => rfl)
theorem ridx76 (r : Fin 50000) (q : Fin 47) (k : Fin 128) : ridx_main_v76 (ix2 r q) k = ix2 k q :=
  funext fun a => Fin.ext (by match a with | ⟨0, _⟩ => rfl | ⟨1, _⟩ => rfl)
theorem idx79 (r : Fin 50000) (q : Fin 47) : idx_main_v79 (ix2 r q) = ix2 0 q :=
  funext fun a => Fin.ext (by match a with | ⟨0, _⟩ => rfl | ⟨1, _⟩ => rfl)
theorem idxMaxCol (r : Fin 50000) (q : Fin 47) : idx_main_call2_v3 (idx_main_call2_v4 (ix2 r q)) = ix1 r :=
  funext fun a => Fin.ext (by match a with | ⟨0, _⟩ => rfl)
theorem idxSumCol (r : Fin 50000) (q : Fin 47) : idx_main_call2_v8 (idx_main_call2_v10 (ix2 r q)) = ix1 r :=
  funext fun a => Fin.ext (by match a with | ⟨0, _⟩ => rfl)
theorem idxSumRow (r : Fin 50000) (k : Fin 47) : idx_main_call2_v7 (ix1 r) k = ix2 r k :=
  funext fun a => Fin.ext (by match a with | ⟨0, _⟩ => rfl | ⟨1, _⟩ => rfl)

/-- The row `r` of a `50000 × 47` array with the class coordinate `k` put back is the entry `(r, k)`. -/
theorem lift_row (h : S50000x47.Reduces [1] S50000) (r : Fin 50000) (k : Fin (S50000x47.size 1)) :
    h.lift (ix1 r) k = ix2 r (⟨k.val, k.isLt⟩ : Fin 47) :=
  funext fun a => Fin.ext (by match a with | ⟨0, _⟩ => rfl | ⟨1, _⟩ => rfl)

/-- The reduction of the maximum over the classes, at row `r`: the fold of the maximum from the initial value over the
    47 entries of the row, for any array and any initial value. -/
theorem rowMax_fold (y : (⟨S50000x47, .f32⟩ : BufTy).Contents (Elt Ideal)) (init : (⟨S_, .f32⟩ : BufTy).Contents (Elt Ideal))
    (r : Fin 50000) :
    Host.reduce (FloatOps.maximumf (F := Ideal) (φ := .f32)) y init reducesTo_S50000x47_S50000_d1 h_S_ (ix1 r)
      = (Finset.univ : Finset (Fin 47)).fold max (init (Shape.Idx.first h_S_)) (fun k => y (ix2 r k)) := by
  rw [Host.reduce_eq_fold_single FloatOps.maximumf _ _ reducesTo_S50000x47_S50000_d1 (by decide) h_S_ (ix1 r)]
  exact congrArg (fun f => Finset.fold max (init (Shape.Idx.first h_S_)) f (Finset.univ : Finset (Fin 47)))
    (funext fun k => congrArg y (lift_row _ r k))

/-- The first hidden layer: the activation of the affine map of the mean features and the input features. -/
theorem h0_eq (x0 : (⟨S50000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) :
    val_main_v29 (F := Ideal) x0 x1 x2 x3 x4
      = Sage.reluLayer (val_main_v22 (F := Ideal) x0 x1) x0 x2 x3 (val_main_v26 (F := Ideal) x4) := by
  funext i
  obtain ⟨r, q, rfl⟩ : ∃ (r : Fin 50000) (q : Fin 128), i = ix2 r q := ⟨i 0, i 1, eq_ix2 i⟩
  rw [Sage.reluLayer_ix2]
  rw [val_main_v29_apply, val_main_v28_apply, val_main_v25_apply, val_main_v23_apply, val_main_v24_apply,
    val_main_v27_apply, val_main_call0_v0_apply, val_main_call0_cst_apply]
  unfold Sage.aff
  simp only [lidx23, ridx23, lidx24, ridx24, idx27, Ideal.maximumf_def, Ideal.addf_def, Ideal.ofBits_def,
    Ideal.ofBits_zero_f32]

/-- The second hidden layer, of the first hidden layer and its mean features. -/
theorem h1_eq (x0 : (⟨S50000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) :
    val_main_v55 (F := Ideal) x0 x1 x2 x3 x4 x5 x6 x7
      = Sage.reluLayer (val_main_v48 (F := Ideal) x0 x1 x2 x3 x4) (val_main_v29 (F := Ideal) x0 x1 x2 x3 x4) x5 x6 (val_main_v52 (F := Ideal) x7) := by
  funext i
  obtain ⟨r, q, rfl⟩ : ∃ (r : Fin 50000) (q : Fin 128), i = ix2 r q := ⟨i 0, i 1, eq_ix2 i⟩
  rw [Sage.reluLayer_ix2]
  rw [val_main_v55_apply, val_main_v54_apply, val_main_v51_apply, val_main_v49_apply, val_main_v50_apply,
    val_main_v53_apply, val_main_call1_v0_apply, val_main_call1_cst_apply]
  unfold Sage.aff
  simp only [lidx49, ridx49, lidx50, ridx50, idx53, Ideal.maximumf_def, Ideal.addf_def, Ideal.ofBits_def,
    Ideal.ofBits_zero_f32]

/-- The result: the row-wise log-softmax of the last affine map, of the second hidden layer and its mean features. -/
theorem out_eq (x0 : (⟨S50000x128, .f32⟩ : BufTy).Contents (Elt Ideal)) (x1 : (⟨S2x800000, .i32⟩ : BufTy).Contents (Elt Ideal)) (x2 x3 : (⟨S128x128, .f32⟩ : BufTy).Contents (Elt Ideal)) (x4 : (⟨S128, .f32⟩ : BufTy).Contents (Elt Ideal)) (x5 x6 : (⟨S128x128, .f32⟩ : BufTy).Contents (Elt Ideal)) (x7 : (⟨S128, .f32⟩ : BufTy).Contents (Elt Ideal)) (x8 x9 : (⟨S128x47, .f32⟩ : BufTy).Contents (Elt Ideal)) (x10 : (⟨S47, .f32⟩ : BufTy).Contents (Elt Ideal)) :
    val_main_v81 (F := Ideal) x0 x1 x2 x3 x4 x5 x6 x7 x8 x9 x10
      = Sage.lsmLayer (val_main_v74 (F := Ideal) x0 x1 x2 x3 x4 x5 x6 x7) (val_main_v55 (F := Ideal) x0 x1 x2 x3 x4 x5 x6 x7) x8 x9 (val_main_v78 (F := Ideal) x10) := by
  funext i
  obtain ⟨r, q, rfl⟩ : ∃ (r : Fin 50000) (q : Fin 47), i = ix2 r q := ⟨i 0, i 1, eq_ix2 i⟩
  rw [Sage.lsmLayer_ix2]
  -- the last affine map at the entries of row r
  have hz : ∀ k : Fin 47, val_main_v80 (F := Ideal) x0 x1 x2 x3 x4 x5 x6 x7 x8 x9 x10 (ix2 r k) = Sage.aff (val_main_v74 (F := Ideal) x0 x1 x2 x3 x4 x5 x6 x7) (val_main_v55 (F := Ideal) x0 x1 x2 x3 x4 x5 x6 x7) x8 x9 (val_main_v78 (F := Ideal) x10) r k := by
    intro k
    rw [val_main_v80_apply, val_main_v77_apply, val_main_v75_apply, val_main_v76_apply, val_main_v79_apply]
    unfold Sage.aff
    simp only [lidx75, ridx75, lidx76, ridx76, idx79, Ideal.addf_def]
  -- the row maximum is the fold of the maximum from −∞ over the classes; the further maximum with −∞ changes nothing
  have hm : ∀ k : Fin 47, val_main_call2_v4 (F := Ideal) x0 x1 x2 x3 x4 x5 x6 x7 x8 x9 x10 (ix2 r k)
      = (Finset.univ : Finset (Fin 47)).fold max (Ideal.ofBits .f32 0xFF800000#32) (Sage.aff (val_main_v74 (F := Ideal) x0 x1 x2 x3 x4 x5 x6 x7) (val_main_v55 (F := Ideal) x0 x1 x2 x3 x4 x5 x6 x7) x8 x9 (val_main_v78 (F := Ideal) x10) r) := by
    intro k
    rw [val_main_call2_v4_apply, val_main_call2_v3_apply, val_main_call2_v2_apply, val_main_call2_v1_apply,
      val_main_call2_cst_0_apply, idxMaxCol]
    unfold val_main_call2_v0
    rw [rowMax_fold, val_main_call2_cst_apply]
    simp only [hz, Ideal.maximumf_def, Ideal.ofBits_def]
    exact Sage.max_fold_max _ _
  -- the shifted entries of row r
  have h5 : ∀ k : Fin 47, val_main_call2_v5 (F := Ideal) x0 x1 x2 x3 x4 x5 x6 x7 x8 x9 x10 (ix2 r k)
      = Sage.aff (val_main_v74 (F := Ideal) x0 x1 x2 x3 x4 x5 x6 x7) (val_main_v55 (F := Ideal) x0 x1 x2 x3 x4 x5 x6 x7) x8 x9 (val_main_v78 (F := Ideal) x10) r k - (Finset.univ : Finset (Fin 47)).fold max (Ideal.ofBits .f32 0xFF800000#32) (Sage.aff (val_main_v74 (F := Ideal) x0 x1 x2 x3 x4 x5 x6 x7) (val_main_v55 (F := Ideal) x0 x1 x2 x3 x4 x5 x6 x7) x8 x9 (val_main_v78 (F := Ideal) x10) r) := by
    intro k
    rw [val_main_call2_v5_apply, hz, hm, Ideal.subf_def]
  -- the exponentials of the shifted entries of row r
  have hs : ∀ k : Fin 47, val_main_call2_v6 (F := Ideal) x0 x1 x2 x3 x4 x5 x6 x7 x8 x9 x10 (idx_main_call2_v7 (ix1 r) k)
      = Ideal.exp (Sage.aff (val_main_v74 (F := Ideal) x0 x1 x2 x3 x4 x5 x6 x7) (val_main_v55 (F := Ideal) x0 x1 x2 x3 x4 x5 x6 x7) x8 x9 (val_main_v78 (F := Ideal) x10) r k - (Finset.univ : Finset (Fin 47)).fold max (Ideal.ofBits .f32 0xFF800000#32) (Sage.aff (val_main_v74 (F := Ideal) x0 x1 x2 x3 x4 x5 x6 x7) (val_main_v55 (F := Ideal) x0 x1 x2 x3 x4 x5 x6 x7) x8 x9 (val_main_v78 (F := Ideal) x10) r)) := by
    intro k
    rw [idxSumRow, val_main_call2_v6_apply, h5, Ideal.hostUnary_exp_def]
  have hsum : (∑ k : Fin 47, val_main_call2_v6 (F := Ideal) x0 x1 x2 x3 x4 x5 x6 x7 x8 x9 x10 (idx_main_call2_v7 (ix1 r) k))
      = ∑ k : Fin 47, Ideal.exp (Sage.aff (val_main_v74 (F := Ideal) x0 x1 x2 x3 x4 x5 x6 x7) (val_main_v55 (F := Ideal) x0 x1 x2 x3 x4 x5 x6 x7) x8 x9 (val_main_v78 (F := Ideal) x10) r k - (Finset.univ : Finset (Fin 47)).fold max (Ideal.ofBits .f32 0xFF800000#32) (Sage.aff (val_main_v74 (F := Ideal) x0 x1 x2 x3 x4 x5 x6 x7) (val_main_v55 (F := Ideal) x0 x1 x2 x3 x4 x5 x6 x7) x8 x9 (val_main_v78 (F := Ideal) x10) r)) :=
    Finset.sum_congr rfl fun k _ => hs k
  rw [val_main_v81_apply, val_main_call2_v10_apply, val_main_call2_v9_apply, val_main_call2_v8_apply, idxSumCol,
    val_main_call2_v7_apply, val_main_call2_cst_1_apply, h5, hsum, Ideal.subf_def, Ideal.hostUnary_log_def,
    Ideal.ofBits_def, Ideal.ofBits_zero_f32, zero_add]
  generalize Sage.aff (val_main_v74 (F := Ideal) x0 x1 x2 x3 x4 x5 x6 x7) (val_main_v55 (F := Ideal) x0 x1 x2 x3 x4 x5 x6 x7) x8 x9 (val_main_v78 (F := Ideal) x10) r = z
  rfl

end Cert.ReferenceIdeal.Stages

end
-- ==== Proof.Bridge.lean ====
/-
  The two programs meet.  The reference forms each layer's mean as the summed neighbour rows DIVIDED by the clamped
  in-degree, recomputing the in-degree in every layer; the kernel's program multiplies by the reciprocal computed once.
  The gather, the scatter-add and the clamp are the same operations of the same edge list in both, so the reference's mean
  stages are the quotient spelling of the kernel's mean (by unfolding), and the quotient and the product by the reciprocal
  agree on the extended reals because the clamped in-degree is never zero.  The biases differ only in how a vector is laid
  out as one row.  With these the reference's three stages are the three layers the kernel's regions leave.
-/
import proofs.«148366_j43800076484795_1_alg».proof.Proof.RefFold
import proofs.«148366_j43800076484795_1_alg».proof.Proof.ReferenceStages
import proofs.«148366_j43800076484795_1_alg».proof.Proof.KernelHost
import Idealize.ShloMosaic.Lib.ValueLayout

noncomputable section

namespace Cert.Bridge

open Idealize.ShloMosaic Idealize.ShloMosaic.ValueIdx Idealize.ShloMosaic.TcCoe Idealize.SL.Sem
open Cert.ReferenceIdeal.ReadP Cert.KernelIdeal.Host

section AnyValues

variable {F : FTy → Type} [FloatOps F]

/-- The first layer's mean in the reference is the quotient spelling of the kernel's mean of the input features. -/
theorem mean0 (x0 : (⟨Cert.ReferenceIdeal.S50000x128, .f32⟩ : BufTy).Contents (Elt F)) (x1 : (⟨Cert.ReferenceIdeal.S2x800000, .i32⟩ : BufTy).Contents (Elt F)) :
    val_main_v22 (F := F) x0 x1 = meanDivOf (srcOf x1) (dstOf x1) x0 := rfl

/-- The second layer's mean in the reference is the quotient spelling of the kernel's mean of the first hidden layer. -/
theorem mean1 (x0 : (⟨Cert.ReferenceIdeal.S50000x128, .f32⟩ : BufTy).Contents (Elt F)) (x1 : (⟨Cert.ReferenceIdeal.S2x800000, .i32⟩ : BufTy).Contents (Elt F)) (x2 x3 : (⟨Cert.ReferenceIdeal.S128x128, .f32⟩ : BufTy).Contents (Elt F)) (x4 : (⟨Cert.ReferenceIdeal.S128, .f32⟩ : BufTy).Contents (Elt F)) :
    val_main_v48 (F := F) x0 x1 x2 x3 x4 = meanDivOf (srcOf x1) (dstOf x1) (val_main_v29 (F := F) x0 x1 x2 x3 x4) := rfl

/-- The last layer's mean in the reference is the quotient spelling of the kernel's mean of the second hidden layer. -/
theorem mean2 (x0 : (⟨Cert.ReferenceIdeal.S50000x128, .f32⟩ : BufTy).Contents (Elt F)) (x1 : (⟨Cert.ReferenceIdeal.S2x800000, .i32⟩ : BufTy).Contents (Elt F)) (x2 x3 : (⟨Cert.ReferenceIdeal.S128x128, .f32⟩ : BufTy).Contents (Elt F)) (x4 : (⟨Cert.ReferenceIdeal.S128, .f32⟩ : BufTy).Contents (Elt F)) (x5 x6 : (⟨Cert.ReferenceIdeal.S128x128, .f32⟩ : BufTy).Contents (Elt F)) (x7 : (⟨Cert.ReferenceIdeal.S128, .f32⟩ : BufTy).Contents (Elt F)) :
    val_main_v74 (F := F) x0 x1 x2 x3 x4 x5 x6 x7 = meanDivOf (srcOf x1) (dstOf x1) (val_main_v55 (F := F) x0 x1 x2 x3 x4 x5 x6 x7) := rfl

end AnyValues

/-- A bias vector broadcast to one row, and the same vector reshaped to one row, are the same row (128 entries). -/
theorem bias128 (b : (⟨Cert.ReferenceIdeal.S128, .f32⟩ : BufTy).Contents (Elt Ideal)) :
    Cert.ReferenceIdeal.ReadP.val_main_v26 (F := Ideal) b = shapeCast _ b Cert.KernelIdeal.Facts₀.shapeCasts_S128_S1x128 := by
  funext i
  obtain ⟨u, q, rfl⟩ : ∃ (u : Fin 1) (q : Fin 128), i = ix2 u q := ⟨i 0, i 1, eq_ix2 i⟩
  rw [val_main_v26_apply, shapeCast_a_1a_apply]
  exact congrArg b (funext fun a => Fin.ext (by match a with | ⟨0, _⟩ => rfl))

/-- The second layer's bias row likewise. -/
theorem bias128' (b : (⟨Cert.ReferenceIdeal.S128, .f32⟩ : BufTy).Contents (Elt Ideal)) :
    Cert.ReferenceIdeal.ReadP.val_main_v52 (F := Ideal) b = shapeCast _ b Cert.KernelIdeal.Facts₀.shapeCasts_S128_S1x128 := by
  funext i
  obtain ⟨u, q, rfl⟩ : ∃ (u : Fin 1) (q : Fin 128), i = ix2 u q := ⟨i 0, i 1, eq_ix2 i⟩
  rw [val_main_v52_apply, shapeCast_a_1a_apply]
  exact congrArg b (funext fun a => Fin.ext (by match a with | ⟨0, _⟩ => rfl))

/-- The last layer's bias row likewise (47 entries). -/
theorem bias47 (b : (⟨Cert.ReferenceIdeal.S47, .f32⟩ : BufTy).Contents (Elt Ideal)) :
    Cert.ReferenceIdeal.ReadP.val_main_v78 (F := Ideal) b = shapeCast _ b Cert.KernelIdeal.Facts₀.shapeCasts_S47_S1x47 := by
  funext i
  obtain ⟨u, q, rfl⟩ : ∃ (u : Fin 1) (q : Fin 47), i = ix2 u q := ⟨i 0, i 1, eq_ix2 i⟩
  rw [val_main_v78_apply, shapeCast_a_1a_apply]
  exact congrArg b (funext fun a => Fin.ext (by match a with | ⟨0, _⟩ => rfl))

/-- The reference's result stage, of the kernel's launch memory read as its arguments, is the composition of the three
    layers that the kernel's program leaves in its result buffer. -/
theorem ref_result (m : (ℓ : Loc Cert.KernelIdeal.nD Cert.KernelIdeal.τ Cert.KernelIdeal.sig) → Buf (Elt Ideal) ℓ) (c : Dev Cert.KernelIdeal.nD) :
    val_main_v81 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
    = outp m c := by
  rw [Cert.ReferenceIdeal.Stages.out_eq, mean2, Cert.ReferenceIdeal.Stages.h1_eq, mean1, Cert.ReferenceIdeal.Stages.h0_eq, mean0,
    bias128, bias128', bias47]
  simp only [← meanOf_eq_div]
  rfl

end Cert.Bridge

end
-- ==== Proof.lean ====
/-
  A three-layer GraphSAGE network with a row-wise log-softmax head, as three row-tiled kernels among host operations,
  against the same network written with whole-array operations.

  In both programs a layer takes the node features h, forms the mean of h over each node's incoming edges (gather the
  source rows, add them into the destination rows, scale by the in-degree clamped below by 1) and computes
  mean · Wl + h · Wr + b; the two hidden layers end in max(·, 0), the last in a log-softmax along each row.  The kernel's
  program computes the reciprocal clamped in-degree once and multiplies; the reference divides in every layer: equal on
  the extended reals because the clamped in-degree is never zero.  Each kernel works on blocks of 2000 rows, and a row
  of a layer's result depends only on the same row of its two inputs, so the blocks written back are the blocks of one
  whole-array function and the 25 of them cover the result.  The change of float format on the way into the matrix unit
  is the identity on extended reals, and a product into a zero accumulator is the plain sum over the contracted axis, as
  is the reference's.  No finiteness of the inputs is used.

  Frames: the two kernel programs' are the generated frame certificates; the reference's is its run with the result
  dropped.  The idealization rewrote nothing, so there is nothing to preserve.
-/
import proofs.«148366_j43800076484795_1_alg».proof.Defs
import proofs.«148366_j43800076484795_1_alg».proof.Proof.Gen.Kernel
import proofs.«148366_j43800076484795_1_alg».proof.Proof.Gen.Kernel.Frame
import proofs.«148366_j43800076484795_1_alg».proof.Proof.Gen.KernelIdeal
import proofs.«148366_j43800076484795_1_alg».proof.Proof.Gen.KernelIdeal.Frame
import proofs.«148366_j43800076484795_1_alg».proof.Proof.Gen.ReferenceIdeal
import proofs.«148366_j43800076484795_1_alg».proof.Proof.Gen.Pre_finite_inputs
import proofs.«148366_j43800076484795_1_alg».proof.Proof.KernelRunNamed
import proofs.«148366_j43800076484795_1_alg».proof.Proof.KernelHost
import proofs.«148366_j43800076484795_1_alg».proof.Proof.RefFold
import proofs.«148366_j43800076484795_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the composition of the three layers of the launch memory in their result buffers. -/
theorem algebraic : Cert.algebraic_KernelIdeal_ReferenceIdeal := by
  intro m ρ m' ρ' _ hagree
  refine ⟨fun c => Cert.KernelIdeal.Host.outp m c, ?_, ?_⟩
  · exact (θ_run Cert.KernelIdeal.defs _ _).mono
      (fun r h c => ⟨(h c).1.trans (Cert.KernelIdeal.Host.W6_v54 m ρ c), (h c).2⟩)
      (Cert.KernelIdeal.GenNamed.run_named m ρ)
  · refine (θ_run Cert.ReferenceIdeal.defs _ _).mono (fun r h c => ⟨?_, (h c).2⟩)
      (Cert.ReferenceIdeal.ValueP.run (F := Ideal) m' ρ')
    refine (h c).1.trans ((Cert.ReferenceIdeal.Fold.fold_eq _).trans ?_)
    obtain ⟨e0, e1, e2, e3, e4, e5, e6, e7, e8, e9, e10⟩ := hagree c
    show Cert.ReferenceIdeal.ReadP.val_main_v81 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10)) = _
    rw [e0, e1, e2, e3, e4, e5, e6, e7, e8, e9, e10]
    exact Cert.Bridge.ref_result m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
